-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)) →
    ∃ (v0 : (c : Dev Cert.KernelIdeal.nD) → Buf (Elt Ideal) ((c.tc : Thread Cert.KernelIdeal.nD Cert.KernelIdeal.τ).loc Cert.KernelIdeal.main_v29)) (v1 : (c : Dev Cert.KernelIdeal.nD) → Buf (Elt Ideal) ((c.tc : Thread Cert.KernelIdeal.nD Cert.KernelIdeal.τ).loc Cert.KernelIdeal.main_arg2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v29) = v0 c
          ∧ r.2.mem ((c.tc : Thread Cert.KernelIdeal.nD Cert.KernelIdeal.τ).loc Cert.KernelIdeal.main_arg2) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v78) = v0 c
          ∧ r.2.mem ((c.tc : Thread Cert.ReferenceIdeal.nD Cert.ReferenceIdeal.τ).loc Cert.ReferenceIdeal.main_arg2) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S200000x128 : Shape := ⟨2, ![200000, 128]⟩
abbrev S200000x10 : Shape := ⟨2, ![200000, 10]⟩
abbrev S200000x32 : Shape := ⟨2, ![200000, 32]⟩
abbrev S2x6400000 : Shape := ⟨2, ![2, 6400000]⟩
abbrev S6400000 : Shape := ⟨1, ![6400000]⟩
abbrev S2x160x32 : Shape := ⟨3, ![2, 160, 32]⟩
abbrev S32 : Shape := ⟨1, ![32]⟩
abbrev S32x10 : Shape := ⟨2, ![32, 10]⟩
abbrev S10 : Shape := ⟨1, ![10]⟩
abbrev S10x32 : Shape := ⟨2, ![10, 32]⟩
abbrev S20x2 : Shape := ⟨2, ![20, 2]⟩
abbrev S2 : Shape := ⟨1, ![2]⟩
abbrev S_ : Shape := ⟨0, ![]⟩

class Facts : Prop where
  bcast_S_S200000x128 : S_.BroadcastsInDim S200000x128 (![] : Fin 0 → Fin S200000x128.rank)
  reducesTo_S200000x128_S_d0_1 : S200000x128.ReducesTo [0, 1] S_
  h_S_ : 0 < S_.numel
  bcast_S_S200000x10 : S_.BroadcastsInDim S200000x10 (![] : Fin 0 → Fin S200000x10.rank)
  reducesTo_S200000x10_S_d0_1 : S200000x10.ReducesTo [0, 1] S_
  bcast_S_S200000x32 : S_.BroadcastsInDim S200000x32 (![] : Fin 0 → Fin S200000x32.rank)
  reducesTo_S200000x32_S_d0_1 : S200000x32.ReducesTo [0, 1] S_
  bcast_S_S6400000 : S_.BroadcastsInDim S6400000 (![] : Fin 0 → Fin S6400000.rank)
  reducesTo_S6400000_S_d0 : S6400000.ReducesTo [0] S_
  bcast_S_S2x160x32 : S_.BroadcastsInDim S2x160x32 (![] : Fin 0 → Fin S2x160x32.rank)
  reducesTo_S2x160x32_S_d0_1_2 : S2x160x32.ReducesTo [0, 1, 2] S_
  bcast_S_S32 : S_.BroadcastsInDim S32 (![] : Fin 0 → Fin S32.rank)
  reducesTo_S32_S_d0 : S32.ReducesTo [0] S_
  bcast_S_S32x10 : S_.BroadcastsInDim S32x10 (![] : Fin 0 → Fin S32x10.rank)
  reducesTo_S32x10_S_d0_1 : S32x10.ReducesTo [0, 1] S_
  bcast_S_S10 : S_.BroadcastsInDim S10 (![] : Fin 0 → Fin S10.rank)
  reducesTo_S10_S_d0 : S10.ReducesTo [0] S_
  bcast_S_S10x32 : S_.BroadcastsInDim S10x32 (![] : Fin 0 → Fin S10x32.rank)
  reducesTo_S10x32_S_d0_1 : S10x32.ReducesTo [0, 1] S_
  bcast_S_S20x2 : S_.BroadcastsInDim S20x2 (![] : Fin 0 → Fin S20x2.rank)
  reducesTo_S20x2_S_d0_1 : S20x2.ReducesTo [0, 1] S_
  bcast_S_S2 : S_.BroadcastsInDim S2 (![] : Fin 0 → Fin S2.rank)
  reducesTo_S2_S_d0 : S2.ReducesTo [0] S_

variable [Facts]

def fn_part5 {F : FTy → Type} [FloatOps F] (main_v83 : IVec S_ 1) (main_v84 : FVec F S2 .f32) (main_cst_32 : FVec F S_ .f32) : IVec S_ 1 :=
  let main_v85 : FVec F S2 .f32 := broadcastInDim S2 ![] bcast_S_S2 main_cst_32
  let main_v86 : IVec S2 1 := cmpf .olt main_v84 main_v85
  let main_c_33 : IVec S_ 1 := constantI S_ 1 1#1
  let main_v87 : IVec S_ 1 := (fun x v => Host.reduce IntOp.andi x v reducesTo_S2_S_d0 h_S_) main_v86 main_c_33
  let main_v88 : IVec S_ 1 := andi main_v83 main_v87
  main_v88

def fn_part4 {F : FTy → Type} [FloatOps F] (main_arg15 : FVec F S32x10 .f32) (main_arg16 : FVec F S10 .f32) (main_arg17 : FVec F S20x2 .f32) (main_arg18 : FVec F S2 .f32) (main_v63 : IVec S_ 1) (main_v67 : IVec S_ 1) : IVec S_ 1 :=
  let main_v68 : IVec S_ 1 := andi main_v63 main_v67
  let main_v69 : FVec F S32x10 .f32 := Host.absf main_arg15
  let main_cst_26 : FVec F S_ .f32 := constant S_ .f32 0x7F800000#32
  let main_v70 : FVec F S32x10 .f32 := broadcastInDim S32x10 ![] bcast_S_S32x10 main_cst_26
  let main_v71 : IVec S32x10 1 := cmpf .olt main_v69 main_v70
  let main_c_27 : IVec S_ 1 := constantI S_ 1 1#1
  let main_v72 : IVec S_ 1 := (fun x v => Host.reduce IntOp.andi x v reducesTo_S32x10_S_d0_1 h_S_) main_v71 main_c_27
  let main_v73 : IVec S_ 1 := andi main_v68 main_v72
  let main_v74 : FVec F S10 .f32 := Host.absf main_arg16
  let main_cst_28 : FVec F S_ .f32 := constant S_ .f32 0x7F800000#32
  let main_v75 : FVec F S10 .f32 := broadcastInDim S10 ![] bcast_S_S10 main_cst_28
  let main_v76 : IVec S10 1 := cmpf .olt main_v74 main_v75
  let main_c_29 : IVec S_ 1 := constantI S_ 1 1#1
  let main_v77 : IVec S_ 1 := (fun x v => Host.reduce IntOp.andi x v reducesTo_S10_S_d0 h_S_) main_v76 main_c_29
  let main_v78 : IVec S_ 1 := andi main_v73 main_v77
  let main_v79 : FVec F S20x2 .f32 := Host.absf main_arg17
  let main_cst_30 : FVec F S_ .f32 := constant S_ .f32 0x7F800000#32
  let main_v80 : FVec F S20x2 .f32 := broadcastInDim S20x2 ![] bcast_S_S20x2 main_cst_30
  let main_v81 : IVec S20x2 1 := cmpf .olt main_v79 main_v80
  let main_c_31 : IVec S_ 1 := constantI S_ 1 1#1
  let main_v82 : IVec S_ 1 := (fun x v => Host.reduce IntOp.andi x v reducesTo_S20x2_S_d0_1 h_S_) main_v81 main_c_31
  let main_v83 : IVec S_ 1 := andi main_v78 main_v82
  let main_v84 : FVec F S2 .f32 := Host.absf main_arg18
  let main_cst_32 : FVec F S_ .f32 := constant S_ .f32 0x7F800000#32
  fn_part5 (F := F) main_v83 main_v84 main_cst_32

def fn_part3 {F : FTy → Type} [FloatOps F] (main_arg12 : FVec F S10 .f32) (main_arg13 : FVec F S10x32 .f32) (main_arg14 : FVec F S32 .f32) (main_arg15 : FVec F S32x10 .f32) (main_arg16 : FVec F S10 .f32) (main_arg17 : FVec F S20x2 .f32) (main_arg18 : FVec F S2 .f32) (main_v48 : IVec S_ 1) (main_v49 : FVec F S32x10 .f32) (main_v50 : FVec F S32x10 .f32) : IVec S_ 1 :=
  let main_v51 : IVec S32x10 1 := cmpf .olt main_v49 main_v50
  let main_c_19 : IVec S_ 1 := constantI S_ 1 1#1
  let main_v52 : IVec S_ 1 := (fun x v => Host.reduce IntOp.andi x v reducesTo_S32x10_S_d0_1 h_S_) main_v51 main_c_19
  let main_v53 : IVec S_ 1 := andi main_v48 main_v52
  let main_v54 : FVec F S10 .f32 := Host.absf main_arg12
  let main_cst_20 : FVec F S_ .f32 := constant S_ .f32 0x7F800000#32
  let main_v55 : FVec F S10 .f32 := broadcastInDim S10 ![] bcast_S_S10 main_cst_20
  let main_v56 : IVec S10 1 := cmpf .olt main_v54 main_v55
  let main_c_21 : IVec S_ 1 := constantI S_ 1 1#1
  let main_v57 : IVec S_ 1 := (fun x v => Host.reduce IntOp.andi x v reducesTo_S10_S_d0 h_S_) main_v56 main_c_21
  let main_v58 : IVec S_ 1 := andi main_v53 main_v57
  let main_v59 : FVec F S10x32 .f32 := Host.absf main_arg13
  let main_cst_22 : FVec F S_ .f32 := constant S_ .f32 0x7F800000#32
  let main_v60 : FVec F S10x32 .f32 := broadcastInDim S10x32 ![] bcast_S_S10x32 main_cst_22
  let main_v61 : IVec S10x32 1 := cmpf .olt main_v59 main_v60
  let main_c_23 : IVec S_ 1 := constantI S_ 1 1#1
  let main_v62 : IVec S_ 1 := (fun x v => Host.reduce IntOp.andi x v reducesTo_S10x32_S_d0_1 h_S_) main_v61 main_c_23
  let main_v63 : IVec S_ 1 := andi main_v58 main_v62
  let main_v64 : FVec F S32 .f32 := Host.absf main_arg14
  let main_cst_24 : FVec F S_ .f32 := constant S_ .f32 0x7F800000#32
  let main_v65 : FVec F S32 .f32 := broadcastInDim S32 ![] bcast_S_S32 main_cst_24
  let main_v66 : IVec S32 1 := cmpf .olt main_v64 main_v65
  let main_c_25 : IVec S_ 1 := constantI S_ 1 1#1
  let main_v67 : IVec S_ 1 := (fun x v => Host.reduce IntOp.andi x v reducesTo_S32_S_d0 h_S_) main_v66 main_c_25
  fn_part4 (F := F) main_arg15 main_arg16 main_arg17 main_arg18 main_v63 main_v67

def fn_part2 {F : FTy → Type} [FloatOps F] (main_arg8 : FVec F S32 .f32) (main_arg9 : FVec F S2x160x32 .f32) (main_arg10 : FVec F S32 .f32) (main_arg11 : FVec F S32x10 .f32) (main_arg12 : FVec F S10 .f32) (main_arg13 : FVec F S10x32 .f32) (main_arg14 : FVec F S32 .f32) (main_arg15 : FVec F S32x10 .f32) (main_arg16 : FVec F S10 .f32) (main_arg17 : FVec F S20x2 .f32) (main_arg18 : FVec F S2 .f32) (main_v33 : IVec S_ 1) : IVec S_ 1 :=
  let main_v34 : FVec F S32 .f32 := Host.absf main_arg8
  let main_cst_12 : FVec F S_ .f32 := constant S_ .f32 0x7F800000#32
  let main_v35 : FVec F S32 .f32 := broadcastInDim S32 ![] bcast_S_S32 main_cst_12
  let main_v36 : IVec S32 1 := cmpf .olt main_v34 main_v35
  let main_c_13 : IVec S_ 1 := constantI S_ 1 1#1
  let main_v37 : IVec S_ 1 := (fun x v => Host.reduce IntOp.andi x v reducesTo_S32_S_d0 h_S_) main_v36 main_c_13
  let main_v38 : IVec S_ 1 := andi main_v33 main_v37
  let main_v39 : FVec F S2x160x32 .f32 := Host.absf main_arg9
  let main_cst_14 : FVec F S_ .f32 := constant S_ .f32 0x7F800000#32
  let main_v40 : FVec F S2x160x32 .f32 := broadcastInDim S2x160x32 ![] bcast_S_S2x160x32 main_cst_14
  let main_v41 : IVec S2x160x32 1 := cmpf .olt main_v39 main_v40
  let main_c_15 : IVec S_ 1 := constantI S_ 1 1#1
  let main_v42 : IVec S_ 1 := (fun x v => Host.reduce IntOp.andi x v reducesTo_S2x160x32_S_d0_1_2 h_S_) main_v41 main_c_15
  let main_v43 : IVec S_ 1 := andi main_v38 main_v42
  let main_v44 : FVec F S32 .f32 := Host.absf main_arg10
  let main_cst_16 : FVec F S_ .f32 := constant S_ .f32 0x7F800000#32
  let main_v45 : FVec F S32 .f32 := broadcastInDim S32 ![] bcast_S_S32 main_cst_16
  let main_v46 : IVec S32 1 := cmpf .olt main_v44 main_v45
  let main_c_17 : IVec S_ 1 := constantI S_ 1 1#1
  let main_v47 : IVec S_ 1 := (fun x v => Host.reduce IntOp.andi x v reducesTo_S32_S_d0 h_S_) main_v46 main_c_17
  let main_v48 : IVec S_ 1 := andi main_v43 main_v47
  let main_v49 : FVec F S32x10 .f32 := Host.absf main_arg11
  let main_cst_18 : FVec F S_ .f32 := constant S_ .f32 0x7F800000#32
  let main_v50 : FVec F S32x10 .f32 := broadcastInDim S32x10 ![] bcast_S_S32x10 main_cst_18
  fn_part3 (F := F) main_arg12 main_arg13 main_arg14 main_arg15 main_arg16 main_arg17 main_arg18 main_v48 main_v49 main_v50

def fn_part1 {F : FTy → Type} [FloatOps F] (main_arg5 : FVec F S2x160x32 .f32) (main_arg6 : FVec F S32 .f32) (main_arg7 : FVec F S2x160x32 .f32) (main_arg8 : FVec F S32 .f32) (main_arg9 : FVec F S2x160x32 .f32) (main_arg10 : FVec F S32 .f32) (main_arg11 : FVec F S32x10 .f32) (main_arg12 : FVec F S10 .f32) (main_arg13 : FVec F S10x32 .f32) (main_arg14 : FVec F S32 .f32) (main_arg15 : FVec F S32x10 .f32) (main_arg16 : FVec F S10 .f32) (main_arg17 : FVec F S20x2 .f32) (main_arg18 : FVec F S2 .f32) (main_v13 : IVec S_ 1) (main_v16 : IVec S6400000 1) : IVec S_ 1 :=
  let main_c_5 : IVec S_ 1 := constantI S_ 1 1#1
  let main_v17 : IVec S_ 1 := (fun x v => Host.reduce IntOp.andi x v reducesTo_S6400000_S_d0 h_S_) main_v16 main_c_5
  let main_v18 : IVec S_ 1 := andi main_v13 main_v17
  let main_v19 : FVec F S2x160x32 .f32 := Host.absf main_arg5
  let main_cst_6 : FVec F S_ .f32 := constant S_ .f32 0x7F800000#32
  let main_v20 : FVec F S2x160x32 .f32 := broadcastInDim S2x160x32 ![] bcast_S_S2x160x32 main_cst_6
  let main_v21 : IVec S2x160x32 1 := cmpf .olt main_v19 main_v20
  let main_c_7 : IVec S_ 1 := constantI S_ 1 1#1
  let main_v22 : IVec S_ 1 := (fun x v => Host.reduce IntOp.andi x v reducesTo_S2x160x32_S_d0_1_2 h_S_) main_v21 main_c_7
  let main_v23 : IVec S_ 1 := andi main_v18 main_v22
  let main_v24 : FVec F S32 .f32 := Host.absf main_arg6
  let main_cst_8 : FVec F S_ .f32 := constant S_ .f32 0x7F800000#32
  let main_v25 : FVec F S32 .f32 := broadcastInDim S32 ![] bcast_S_S32 main_cst_8
  let main_v26 : IVec S32 1 := cmpf .olt main_v24 main_v25
  let main_c_9 : IVec S_ 1 := constantI S_ 1 1#1
  let main_v27 : IVec S_ 1 := (fun x v => Host.reduce IntOp.andi x v reducesTo_S32_S_d0 h_S_) main_v26 main_c_9
  let main_v28 : IVec S_ 1 := andi main_v23 main_v27
  let main_v29 : FVec F S2x160x32 .f32 := Host.absf main_arg7
  let main_cst_10 : FVec F S_ .f32 := constant S_ .f32 0x7F800000#32
  let main_v30 : FVec F S2x160x32 .f32 := broadcastInDim S2x160x32 ![] bcast_S_S2x160x32 main_cst_10
  let main_v31 : IVec S2x160x32 1 := cmpf .olt main_v29 main_v30
  let main_c_11 : IVec S_ 1 := constantI S_ 1 1#1
  let main_v32 : IVec S_ 1 := (fun x v => Host.reduce IntOp.andi x v reducesTo_S2x160x32_S_d0_1_2 h_S_) main_v31 main_c_11
  let main_v33 : IVec S_ 1 := andi main_v28 main_v32
  fn_part2 (F := F) main_arg8 main_arg9 main_arg10 main_arg11 main_arg12 main_arg13 main_arg14 main_arg15 main_arg16 main_arg17 main_arg18 main_v33

def fn {F : FTy → Type} [FloatOps F] (main_arg0 : FVec F S200000x128 .f32) (main_arg1 : FVec F S200000x10 .f32) (main_arg2 : FVec F S200000x32 .f32) (main_arg3 : IVec S2x6400000 32) (main_arg4 : FVec F S6400000 .f32) (main_arg5 : FVec F S2x160x32 .f32) (main_arg6 : FVec F S32 .f32) (main_arg7 : FVec F S2x160x32 .f32) (main_arg8 : FVec F S32 .f32) (main_arg9 : FVec F S2x160x32 .f32) (main_arg10 : FVec F S32 .f32) (main_arg11 : FVec F S32x10 .f32) (main_arg12 : FVec F S10 .f32) (main_arg13 : FVec F S10x32 .f32) (main_arg14 : FVec F S32 .f32) (main_arg15 : FVec F S32x10 .f32) (main_arg16 : FVec F S10 .f32) (main_arg17 : FVec F S20x2 .f32) (main_arg18 : FVec F S2 .f32) : IVec S_ 1 :=
  let main_v0 : FVec F S200000x128 .f32 := Host.absf main_arg0
  let main_cst : FVec F S_ .f32 := constant S_ .f32 0x7F800000#32
  let main_v1 : FVec F S200000x128 .f32 := broadcastInDim S200000x128 ![] bcast_S_S200000x128 main_cst
  let main_v2 : IVec S200000x128 1 := cmpf .olt main_v0 main_v1
  let main_c : IVec S_ 1 := constantI S_ 1 1#1
  let main_v3 : IVec S_ 1 := (fun x v => Host.reduce IntOp.andi x v reducesTo_S200000x128_S_d0_1 h_S_) main_v2 main_c
  let main_v4 : FVec F S200000x10 .f32 := Host.absf main_arg1
  let main_cst_0 : FVec F S_ .f32 := constant S_ .f32 0x7F800000#32
  let main_v5 : FVec F S200000x10 .f32 := broadcastInDim S200000x10 ![] bcast_S_S200000x10 main_cst_0
  let main_v6 : IVec S200000x10 1 := cmpf .olt main_v4 main_v5
  let main_c_1 : IVec S_ 1 := constantI S_ 1 1#1
  let main_v7 : IVec S_ 1 := (fun x v => Host.reduce IntOp.andi x v reducesTo_S200000x10_S_d0_1 h_S_) main_v6 main_c_1
  let main_v8 : IVec S_ 1 := andi main_v3 main_v7
  let main_v9 : FVec F S200000x32 .f32 := Host.absf main_arg2
  let main_cst_2 : FVec F S_ .f32 := constant S_ .f32 0x7F800000#32
  let main_v10 : FVec F S200000x32 .f32 := broadcastInDim S200000x32 ![] bcast_S_S200000x32 main_cst_2
  let main_v11 : IVec S200000x32 1 := cmpf .olt main_v9 main_v10
  let main_c_3 : IVec S_ 1 := constantI S_ 1 1#1
  let main_v12 : IVec S_ 1 := (fun x v => Host.reduce IntOp.andi x v reducesTo_S200000x32_S_d0_1 h_S_) main_v11 main_c_3
  let main_v13 : IVec S_ 1 := andi main_v8 main_v12
  let main_v14 : FVec F S6400000 .f32 := Host.absf main_arg4
  let main_cst_4 : FVec F S_ .f32 := constant S_ .f32 0x7F800000#32
  let main_v15 : FVec F S6400000 .f32 := broadcastInDim S6400000 ![] bcast_S_S6400000 main_cst_4
  let main_v16 : IVec S6400000 1 := cmpf .olt main_v14 main_v15
  fn_part1 (F := F) main_arg5 main_arg6 main_arg7 main_arg8 main_arg9 main_arg10 main_arg11 main_arg12 main_arg13 main_arg14 main_arg15 main_arg16 main_arg17 main_arg18 main_v13 main_v16
-- ==== Kernel.lean ====
abbrev S200000x128 : Shape := ⟨2, ![200000, 128]⟩
abbrev S200000x10 : Shape := ⟨2, ![200000, 10]⟩
abbrev S200000x32 : Shape := ⟨2, ![200000, 32]⟩
abbrev S2x6400000 : Shape := ⟨2, ![2, 6400000]⟩
abbrev S6400000 : Shape := ⟨1, ![6400000]⟩
abbrev S2x160x32 : Shape := ⟨3, ![2, 160, 32]⟩
abbrev S32 : Shape := ⟨1, ![32]⟩
abbrev S32x10 : Shape := ⟨2, ![32, 10]⟩
abbrev S10 : Shape := ⟨1, ![10]⟩
abbrev S10x32 : Shape := ⟨2, ![10, 32]⟩
abbrev S20x2 : Shape := ⟨2, ![20, 2]⟩
abbrev S2 : Shape := ⟨1, ![2]⟩
abbrev S1x160x32 : Shape := ⟨3, ![1, 160, 32]⟩
abbrev S160x32 : Shape := ⟨2, ![160, 32]⟩
abbrev S1x32 : Shape := ⟨2, ![1, 32]⟩
abbrev S1x10 : Shape := ⟨2, ![1, 10]⟩
abbrev S1x2 : Shape := ⟨2, ![1, 2]⟩
abbrev S200000x2 : Shape := ⟨2, ![200000, 2]⟩
abbrev S2000x128 : Shape := ⟨2, ![2000, 128]⟩
abbrev S2000x10 : Shape := ⟨2, ![2000, 10]⟩
abbrev S2000x32 : Shape := ⟨2, ![2000, 32]⟩
abbrev S2000x2 : Shape := ⟨2, ![2000, 2]⟩
abbrev S2000x160 : Shape := ⟨2, ![2000, 160]⟩
abbrev S2000x20 : Shape := ⟨2, ![2000, 20]⟩
abbrev S2000 : Shape := ⟨1, ![2000]⟩
abbrev S2000x1 : Shape := ⟨2, ![2000, 1]⟩

abbrev nBuf : Space → Nat
  | .hbm => 49
  | .vmem => 22
  | .smem => 0
  | _ => 0

abbrev bufTy : (tb : Table) → Fin (tcTables nBuf tb) → BufTy
  | .hbm, ⟨0, _⟩ => ⟨S200000x128, .f32⟩
  | .hbm, ⟨1, _⟩ => ⟨S200000x10, .f32⟩
  | .hbm, ⟨2, _⟩ => ⟨S200000x32, .f32⟩
  | .hbm, ⟨3, _⟩ => ⟨S2x6400000, .i32⟩
  | .hbm, ⟨4, _⟩ => ⟨S6400000, .f32⟩
  | .hbm, ⟨5, _⟩ => ⟨S2x160x32, .f32⟩
  | .hbm, ⟨6, _⟩ => ⟨S32, .f32⟩
  | .hbm, ⟨7, _⟩ => ⟨S2x160x32, .f32⟩
  | .hbm, ⟨8, _⟩ => ⟨S32, .f32⟩
  | .hbm, ⟨9, _⟩ => ⟨S2x160x32, .f32⟩
  | .hbm, ⟨10, _⟩ => ⟨S32, .f32⟩
  | .hbm, ⟨11, _⟩ => ⟨S32x10, .f32⟩
  | .hbm, ⟨12, _⟩ => ⟨S10, .f32⟩
  | .hbm, ⟨13, _⟩ => ⟨S10x32, .f32⟩
  | .hbm, ⟨14, _⟩ => ⟨S32, .f32⟩
  | .hbm, ⟨15, _⟩ => ⟨S32x10, .f32⟩
  | .hbm, ⟨16, _⟩ => ⟨S10, .f32⟩
  | .hbm, ⟨17, _⟩ => ⟨S20x2, .f32⟩
  | .hbm, ⟨18, _⟩ => ⟨S2, .f32⟩
  | .hbm, ⟨19, _⟩ => ⟨S1x160x32, .f32⟩
  | .hbm, ⟨20, _⟩ => ⟨S160x32, .f32⟩
  | .hbm, ⟨21, _⟩ => ⟨S1x160x32, .f32⟩
  | .hbm, ⟨22, _⟩ => ⟨S160x32, .f32⟩
  | .hbm, ⟨23, _⟩ => ⟨S160x32, .f32⟩
  | .hbm, ⟨24, _⟩ => ⟨S160x32, .bf16⟩
  | .hbm, ⟨25, _⟩ => ⟨S1x160x32, .f32⟩
  | .hbm, ⟨26, _⟩ => ⟨S160x32, .f32⟩
  | .hbm, ⟨27, _⟩ => ⟨S1x160x32, .f32⟩
  | .hbm, ⟨28, _⟩ => ⟨S160x32, .f32⟩
  | .hbm, ⟨29, _⟩ => ⟨S160x32, .f32⟩
  | .hbm, ⟨30, _⟩ => ⟨S160x32, .bf16⟩
  | .hbm, ⟨31, _⟩ => ⟨S1x160x32, .f32⟩
  | .hbm, ⟨32, _⟩ => ⟨S160x32, .f32⟩
  | .hbm, ⟨33, _⟩ => ⟨S1x160x32, .f32⟩
  | .hbm, ⟨34, _⟩ => ⟨S160x32, .f32⟩
  | .hbm, ⟨35, _⟩ => ⟨S160x32, .f32⟩
  | .hbm, ⟨36, _⟩ => ⟨S160x32, .bf16⟩
  | .hbm, ⟨37, _⟩ => ⟨S1x32, .f32⟩
  | .hbm, ⟨38, _⟩ => ⟨S1x32, .f32⟩
  | .hbm, ⟨39, _⟩ => ⟨S1x32, .f32⟩
  | .hbm, ⟨40, _⟩ => ⟨S32x10, .bf16⟩
  | .hbm, ⟨41, _⟩ => ⟨S1x10, .f32⟩
  | .hbm, ⟨42, _⟩ => ⟨S10x32, .bf16⟩
  | .hbm, ⟨43, _⟩ => ⟨S1x32, .f32⟩
  | .hbm, ⟨44, _⟩ => ⟨S32x10, .bf16⟩
  | .hbm, ⟨45, _⟩ => ⟨S1x10, .f32⟩
  | .hbm, ⟨46, _⟩ => ⟨S20x2, .bf16⟩
  | .hbm, ⟨47, _⟩ => ⟨S1x2, .f32⟩
  | .hbm, ⟨48, _⟩ => ⟨S200000x2, .f32⟩
  | .local _ .vmem, ⟨0, _⟩ => ⟨S2000x128, .f32⟩
  | .local _ .vmem, ⟨1, _⟩ => ⟨S2000x128, .f32⟩
  | .local _ .vmem, ⟨2, _⟩ => ⟨S2000x10, .f32⟩
  | .local _ .vmem, ⟨3, _⟩ => ⟨S2000x10, .f32⟩
  | .local _ .vmem, ⟨4, _⟩ => ⟨S2000x32, .f32⟩
  | .local _ .vmem, ⟨5, _⟩ => ⟨S2000x32, .f32⟩
  | .local _ .vmem, ⟨6, _⟩ => ⟨S160x32, .bf16⟩
  | .local _ .vmem, ⟨7, _⟩ => ⟨S1x32, .f32⟩
  | .local _ .vmem, ⟨8, _⟩ => ⟨S160x32, .bf16⟩
  | .local _ .vmem, ⟨9, _⟩ => ⟨S1x32, .f32⟩
  | .local _ .vmem, ⟨10, _⟩ => ⟨S160x32, .bf16⟩
  | .local _ .vmem, ⟨11, _⟩ => ⟨S1x32, .f32⟩
  | .local _ .vmem, ⟨12, _⟩ => ⟨S32x10, .bf16⟩
  | .local _ .vmem, ⟨13, _⟩ => ⟨S1x10, .f32⟩
  | .local _ .vmem, ⟨14, _⟩ => ⟨S10x32, .bf16⟩
  | .local _ .vmem, ⟨15, _⟩ => ⟨S1x32, .f32⟩
  | .local _ .vmem, ⟨16, _⟩ => ⟨S32x10, .bf16⟩
  | .local _ .vmem, ⟨17, _⟩ => ⟨S1x10, .f32⟩
  | .local _ .vmem, ⟨18, _⟩ => ⟨S20x2, .bf16⟩
  | .local _ .vmem, ⟨19, _⟩ => ⟨S1x2, .f32⟩
  | .local _ .vmem, ⟨20, _⟩ => ⟨S2000x2, .f32⟩
  | .local _ .vmem, ⟨21, _⟩ => ⟨S2000x2, .f32⟩
  | _, _ => ⟨S200000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg13_0 : Ref sig .tc := ⟨.vmem, 16, rfl⟩
abbrev cc0_stg14_0 : Ref sig .tc := ⟨.vmem, 17, rfl⟩
abbrev cc0_stg15_0 : Ref sig .tc := ⟨.vmem, 18, rfl⟩
abbrev cc0_stg16_0 : Ref sig .tc := ⟨.vmem, 19, rfl⟩
abbrev cc0_stg17_0 : Ref sig .tc := ⟨.vmem, 20, rfl⟩
abbrev cc0_stg17_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem13_0 : DmaSem sig := 16
abbrev cc0_sem14_0 : DmaSem sig := 17
abbrev cc0_sem15_0 : DmaSem sig := 18
abbrev cc0_sem16_0 : DmaSem sig := 19
abbrev cc0_sem17_0 : DmaSem sig := 20
abbrev cc0_sem17_1 : DmaSem sig := 21

abbrev nD : Nat := 1
abbrev τ : Topo := Topo.v7x

variable {F : FTy → Type} [FloatOps F]

abbrev grid0 : Pipeline.Grid := ⟨1, ![100], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x10 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2000x32 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S160x32 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x32 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S160x32 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x32 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S160x32 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x32 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S32x10 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x10 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S10x32 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x32 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S32x10 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x10 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S20x2 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1x2 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 2 → Memref sig .tc .vmem S2000x2 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

class Facts₀ : Prop where
  slices_S2x160x32_S1x160x32_0_0_0 : S2x160x32.Slices ![0, 0, 0] S1x160x32
  shapeCasts_S1x160x32_S160x32 : S1x160x32.ShapeCasts S160x32
  slices_S2x160x32_S1x160x32_1_0_0 : S2x160x32.Slices ![1, 0, 0] S1x160x32
  bitsLt_bf16_f32 : FTy.bits .bf16 < FTy.bits .f32
  shapeCasts_S32_S1x32 : S32.ShapeCasts S1x32
  shapeCasts_S10_S1x10 : S10.ShapeCasts S1x10
  shapeCasts_S2_S1x2 : S2.ShapeCasts S1x2
  inb_S2000x128_S2000x128_0_0 : ∀ a, (![0, 0] : Fin 2 → Nat) a + S2000x128.size a ≤ S2000x128.size a
  h_S2000x128 : 0 < S2000x128.numel
  inb_S2000x32_S2000x32_0_0 : ∀ a, (![0, 0] : Fin 2 → Nat) a + S2000x32.size a ≤ S2000x32.size a
  h_S2000x32 : 0 < S2000x32.numel
  inb_S2000x10_S2000x10_0_0 : ∀ a, (![0, 0] : Fin 2 → Nat) a + S2000x10.size a ≤ S2000x10.size a
  h_S2000x10 : 0 < S2000x10.numel
  concatenates_S2000x128_S2000x32_S2000x160_d1 : Shape.Concatenates [S2000x128, S2000x32] S2000x160 1
  inb_S160x32_S160x32_0_0 : ∀ a, (![0, 0] : Fin 2 → Nat) a + S160x32.size a ≤ S160x32.size a
  h_S160x32 : 0 < S160x32.numel
  shapeCasts_S160x32_S160x32 : S160x32.ShapeCasts S160x32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S2000x32 : S1x32.Broadcasts S2000x32
  inb_S32x10_S32x10_0_0 : ∀ a, (![0, 0] : Fin 2 → Nat) a + S32x10.size a ≤ S32x10.size a
  h_S32x10 : 0 < S32x10.numel
  shapeCasts_S32x10_S32x10 : S32x10.ShapeCasts S32x10
  inb_S1x10_S1x10_0_0 : ∀ a, (![0, 0] : Fin 2 → Nat) a + S1x10.size a ≤ S1x10.size a
  h_S1x10 : 0 < S1x10.numel
  shapeCasts_S1x10_S1x10 : S1x10.ShapeCasts S1x10
  broadcasts_S1x10_S2000x10 : S1x10.Broadcasts S2000x10
  inb_S10x32_S10x32_0_0 : ∀ a, (![0, 0] : Fin 2 → Nat) a + S10x32.size a ≤ S10x32.size a
  h_S10x32 : 0 < S10x32.numel
  shapeCasts_S10x32_S10x32 : S10x32.ShapeCasts S10x32
  concatenates_S2000x10_S2000x10_S2000x20_d1 : Shape.Concatenates [S2000x10, S2000x10] S2000x20 1
  inb_S20x2_S20x2_0_0 : ∀ a, (![0, 0] : Fin 2 → Nat) a + S20x2.size a ≤ S20x2.size a
  h_S20x2 : 0 < S20x2.numel
  shapeCasts_S20x2_S20x2 : S20x2.ShapeCasts S20x2
  inb_S1x2_S1x2_0_0 : ∀ a, (![0, 0] : Fin 2 → Nat) a + S1x2.size a ≤ S1x2.size a
  h_S1x2 : 0 < S1x2.numel
  shapeCasts_S1x2_S1x2 : S1x2.ShapeCasts S1x2
  broadcasts_S1x2_S2000x2 : S1x2.Broadcasts S2000x2
  reduces_S2000x2_S2000 : S2000x2.Reduces [1] S2000
  shapeCasts_S2000_S2000x1 : S2000.ShapeCasts S2000x1
  broadcasts_S2000x1_S2000x2 : S2000x1.Broadcasts S2000x2
  inb_S2000x2_S2000x2_0_0 : ∀ a, (![0, 0] : Fin 2 → Nat) a + S2000x2.size a ≤ S2000x2.size a
  h_S2000x2 : 0 < S2000x2.numel
  dot_S2000x160_S160x32_S2000x32_1_0_0_1_n_n_wf : DotDims.WF S2000x160 S160x32 S2000x32 [1] [0] [0] [1] [] []
  dot_S2000x32_S32x10_S2000x10_1_0_0_1_n_n_wf : DotDims.WF S2000x32 S32x10 S2000x10 [1] [0] [0] [1] [] []
  dot_S2000x10_S10x32_S2000x32_1_0_0_1_n_n_wf : DotDims.WF S2000x10 S10x32 S2000x32 [1] [0] [0] [1] [] []
  dot_S2000x20_S20x2_S2000x2_1_0_0_1_n_n_wf : DotDims.WF S2000x20 S20x2 S2000x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S200000x128.size a
  hwx0_0 : ∀ i : grid0.Coords, EltTy.bits .f32 = 32 ∨ (Rect.block (s := S200000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x10.size a ≤ S200000x10.size a
  hwx0_1 : ∀ i : grid0.Coords, EltTy.bits .f32 = 32 ∨ (Rect.block (s := S200000x10) S2000x10.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x32.size a ≤ S200000x32.size a
  hwx0_2 : ∀ i : grid0.Coords, EltTy.bits .f32 = 32 ∨ (Rect.block (s := S200000x32) S2000x32.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S160x32.size a ≤ S160x32.size a
  hwx0_3 : ∀ i : grid0.Coords, EltTy.bits .bf16 = 32 ∨ (Rect.block (s := S160x32) S160x32.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x32.size a ≤ S1x32.size a
  hwx0_4 : ∀ i : grid0.Coords, EltTy.bits .f32 = 32 ∨ (Rect.block (s := S1x32) S1x32.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S160x32.size a ≤ S160x32.size a
  hwx0_5 : ∀ i : grid0.Coords, EltTy.bits .bf16 = 32 ∨ (Rect.block (s := S160x32) S160x32.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x32.size a ≤ S1x32.size a
  hwx0_6 : ∀ i : grid0.Coords, EltTy.bits .f32 = 32 ∨ (Rect.block (s := S1x32) S1x32.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S160x32.size a ≤ S160x32.size a
  hwx0_7 : ∀ i : grid0.Coords, EltTy.bits .bf16 = 32 ∨ (Rect.block (s := S160x32) S160x32.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x32.size a ≤ S1x32.size a
  hwx0_8 : ∀ i : grid0.Coords, EltTy.bits .f32 = 32 ∨ (Rect.block (s := S1x32) S1x32.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S32x10.size a ≤ S32x10.size a
  hwx0_9 : ∀ i : grid0.Coords, EltTy.bits .bf16 = 32 ∨ (Rect.block (s := S32x10) S32x10.size (cc0_transform_9 i) (hinb0_9 i)).WholeWords (EltTy.packing .bf16)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x10.size a ≤ S1x10.size a
  hwx0_10 : ∀ i : grid0.Coords, EltTy.bits .f32 = 32 ∨ (Rect.block (s := S1x10) S1x10.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S10x32.size a ≤ S10x32.size a
  hwx0_11 : ∀ i : grid0.Coords, EltTy.bits .bf16 = 32 ∨ (Rect.block (s := S10x32) S10x32.size (cc0_transform_11 i) (hinb0_11 i)).WholeWords (EltTy.packing .bf16)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S1x32.size a ≤ S1x32.size a
  hwx0_12 : ∀ i : grid0.Coords, EltTy.bits .f32 = 32 ∨ (Rect.block (s := S1x32) S1x32.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S32x10.size a ≤ S32x10.size a
  hwx0_13 : ∀ i : grid0.Coords, EltTy.bits .bf16 = 32 ∨ (Rect.block (s := S32x10) S32x10.size (cc0_transform_13 i) (hinb0_13 i)).WholeWords (EltTy.packing .bf16)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S1x10.size a ≤ S1x10.size a
  hwx0_14 : ∀ i : grid0.Coords, EltTy.bits .f32 = 32 ∨ (Rect.block (s := S1x10) S1x10.size (cc0_transform_14 i) (hinb0_14 i)).WholeWords (EltTy.packing .f32)
  hstage0_15 : ∀ j, (stage0_15 j).IsWhole
  nbuf0_15 : grid0.bufCount reads0_15 true = 1
  hreads0_15 : ∀ i i' : grid0.Coords, (∀ a, reads0_15 a = true → i a = i' a) → cc0_transform_15 i = cc0_transform_15 i'
  hinb0_15 : ∀ (i : grid0.Coords) a, (cc0_transform_15 i a + 1) * S20x2.size a ≤ S20x2.size a
  hwx0_15 : ∀ i : grid0.Coords, EltTy.bits .bf16 = 32 ∨ (Rect.block (s := S20x2) S20x2.size (cc0_transform_15 i) (hinb0_15 i)).WholeWords (EltTy.packing .bf16)
  hstage0_16 : ∀ j, (stage0_16 j).IsWhole
  nbuf0_16 : grid0.bufCount reads0_16 true = 1
  hreads0_16 : ∀ i i' : grid0.Coords, (∀ a, reads0_16 a = true → i a = i' a) → cc0_transform_16 i = cc0_transform_16 i'
  hinb0_16 : ∀ (i : grid0.Coords) a, (cc0_transform_16 i a + 1) * S1x2.size a ≤ S1x2.size a
  hwx0_16 : ∀ i : grid0.Coords, EltTy.bits .f32 = 32 ∨ (Rect.block (s := S1x2) S1x2.size (cc0_transform_16 i) (hinb0_16 i)).WholeWords (EltTy.packing .f32)
  hstage0_17 : ∀ j, (stage0_17 j).IsWhole
  nbuf0_17 : grid0.bufCount reads0_17 false = 2
  hreads0_17 : ∀ i i' : grid0.Coords, (∀ a, reads0_17 a = true → i a = i' a) → cc0_transform_17 i = cc0_transform_17 i'
  hinb0_17 : ∀ (i : grid0.Coords) a, (cc0_transform_17 i a + 1) * S2000x2.size a ≤ S200000x2.size a
  hwx0_17 : ∀ i : grid0.Coords, EltTy.bits .f32 = 32 ∨ (Rect.block (s := S200000x2) S2000x2.size (cc0_transform_17 i) (hinb0_17 i)).WholeWords (EltTy.packing .f32)

variable [Facts₀]

def dot_S2000x160_S160x32_S2000x32_1_0_0_1_n_n : DotDims S2000x160 S160x32 S2000x32 where
  lhsContracting := [1]
  rhsContracting := [0]
  lhsNonContracting := [0]
  rhsNonContracting := [1]
  lhsBatch := []
  rhsBatch := []
  wf := dot_S2000x160_S160x32_S2000x32_1_0_0_1_n_n_wf
def dot_S2000x32_S32x10_S2000x10_1_0_0_1_n_n : DotDims S2000x32 S32x10 S2000x10 where
  lhsContracting := [1]
  rhsContracting := [0]
  lhsNonContracting := [0]
  rhsNonContracting := [1]
  lhsBatch := []
  rhsBatch := []
  wf := dot_S2000x32_S32x10_S2000x10_1_0_0_1_n_n_wf
def dot_S2000x10_S10x32_S2000x32_1_0_0_1_n_n : DotDims S2000x10 S10x32 S2000x32 where
  lhsContracting := [1]
  rhsContracting := [0]
  lhsNonContracting := [0]
  rhsNonContracting := [1]
  lhsBatch := []
  rhsBatch := []
  wf := dot_S2000x10_S10x32_S2000x32_1_0_0_1_n_n_wf
def dot_S2000x20_S20x2_S2000x2_1_0_0_1_n_n : DotDims S2000x20 S20x2 S2000x2 where
  lhsContracting := [1]
  rhsContracting := [0]
  lhsNonContracting := [0]
  rhsNonContracting := [1]
  lhsBatch := []
  rhsBatch := []
  wf := dot_S2000x20_S20x2_S2000x2_1_0_0_1_n_n_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2000x10.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S2000x32.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v5) S160x32.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v18) S1x32.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v11) S160x32.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v19) S1x32.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v17) S160x32.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v20) S1x32.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v21) S32x10.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v22) S1x10.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v23) S10x32.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v24) S1x32.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v25) S32x10.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_v26) S1x10.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_v27) S20x2.size cc0_transform_15 reads0_15 false true 1 stage0_15 sem0_15
    hrank0 hreads0_15 hinb0_15 nbuf0_15 (Memref.isWhole_whole _) hwx0_15 hstage0_15

abbrev win0_16 : Pipeline.Window sig grid0 :=
  Pipeline.Window.ofSpec (Memref.whole main_v28) S1x2.size cc0_transform_16 reads0_16 false true 1 stage0_16 sem0_16
    hrank0 hreads0_16 hinb0_16 nbuf0_16 (Memref.isWhole_whole _) hwx0_16 hstage0_16

abbrev win0_17 : Pipeline.Window sig grid0 :=
  Pipeline.Window.ofSpec (Memref.whole main_v29) S2000x2.size cc0_transform_17 reads0_17 true false 2 stage0_17 sem0_17
    hrank0 hreads0_17 hinb0_17 nbuf0_17 (Memref.isWhole_whole _) hwx0_17 hstage0_17

abbrev win0 : Fin 18 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | 17 => win0_17 | ⟨_ + 18, h⟩ => absurd h (Nat.not_lt.2 (Nat.le_add_left _ _))
abbrev spec0 : Fin 18 → Pipeline.WinSpec sig grid0.rank := fun w => (win0 w).toWinSpec

class Facts : Prop extends Facts₀ where

variable [Facts]
-- ==== ReferenceIdeal.lean ====
abbrev S200000x128 : Shape := ⟨2, ![200000, 128]⟩
abbrev S200000x10 : Shape := ⟨2, ![200000, 10]⟩
abbrev S200000x32 : Shape := ⟨2, ![200000, 32]⟩
abbrev S2x6400000 : Shape := ⟨2, ![2, 6400000]⟩
abbrev S6400000 : Shape := ⟨1, ![6400000]⟩
abbrev S2x160x32 : Shape := ⟨3, ![2, 160, 32]⟩
abbrev S32 : Shape := ⟨1, ![32]⟩
abbrev S32x10 : Shape := ⟨2, ![32, 10]⟩
abbrev S10 : Shape := ⟨1, ![10]⟩
abbrev S10x32 : Shape := ⟨2, ![10, 32]⟩
abbrev S20x2 : Shape := ⟨2, ![20, 2]⟩
abbrev S2 : Shape := ⟨1, ![2]⟩
abbrev S200000x160 : Shape := ⟨2, ![200000, 160]⟩
abbrev S1x160x32 : Shape := ⟨3, ![1, 160, 32]⟩
abbrev S160x32 : Shape := ⟨2, ![160, 32]⟩
abbrev S1x32 : Shape := ⟨2, ![1, 32]⟩
abbrev S_ : Shape := ⟨0, ![]⟩
abbrev S1x10 : Shape := ⟨2, ![1, 10]⟩
abbrev S200000x20 : Shape := ⟨2, ![200000, 20]⟩
abbrev S200000x2 : Shape := ⟨2, ![200000, 2]⟩
abbrev S1x2 : Shape := ⟨2, ![1, 2]⟩
abbrev S200000 : Shape := ⟨1, ![200000]⟩
abbrev S200000x1 : Shape := ⟨2, ![200000, 1]⟩

abbrev nBuf : Space → Nat
  | .hbm => 112
  | .vmem => 0
  | .smem => 0
  | _ => 0

abbrev bufTy : (tb : Table) → Fin (tcTables nBuf tb) → BufTy
  | .hbm, ⟨0, _⟩ => ⟨S200000x128, .f32⟩
  | .hbm, ⟨1, _⟩ => ⟨S200000x10, .f32⟩
  | .hbm, ⟨2, _⟩ => ⟨S200000x32, .f32⟩
  | .hbm, ⟨3, _⟩ => ⟨S2x6400000, .i32⟩
  | .hbm, ⟨4, _⟩ => ⟨S6400000, .f32⟩
  | .hbm, ⟨5, _⟩ => ⟨S2x160x32, .f32⟩
  | .hbm, ⟨6, _⟩ => ⟨S32, .f32⟩
  | .hbm, ⟨7, _⟩ => ⟨S2x160x32, .f32⟩
  | .hbm, ⟨8, _⟩ => ⟨S32, .f32⟩
  | .hbm, ⟨9, _⟩ => ⟨S2x160x32, .f32⟩
  | .hbm, ⟨10, _⟩ => ⟨S32, .f32⟩
  | .hbm, ⟨11, _⟩ => ⟨S32x10, .f32⟩
  | .hbm, ⟨12, _⟩ => ⟨S10, .f32⟩
  | .hbm, ⟨13, _⟩ => ⟨S10x32, .f32⟩
  | .hbm, ⟨14, _⟩ => ⟨S32, .f32⟩
  | .hbm, ⟨15, _⟩ => ⟨S32x10, .f32⟩
  | .hbm, ⟨16, _⟩ => ⟨S10, .f32⟩
  | .hbm, ⟨17, _⟩ => ⟨S20x2, .f32⟩
  | .hbm, ⟨18, _⟩ => ⟨S2, .f32⟩
  | .hbm, ⟨19, _⟩ => ⟨S200000x160, .f32⟩
  | .hbm, ⟨20, _⟩ => ⟨S1x160x32, .f32⟩
  | .hbm, ⟨21, _⟩ => ⟨S160x32, .f32⟩
  | .hbm, ⟨22, _⟩ => ⟨S1x160x32, .f32⟩
  | .hbm, ⟨23, _⟩ => ⟨S160x32, .f32⟩
  | .hbm, ⟨24, _⟩ => ⟨S160x32, .f32⟩
  | .hbm, ⟨25, _⟩ => ⟨S200000x32, .f32⟩
  | .hbm, ⟨26, _⟩ => ⟨S1x32, .f32⟩
  | .hbm, ⟨27, _⟩ => ⟨S200000x32, .f32⟩
  | .hbm, ⟨28, _⟩ => ⟨S200000x32, .f32⟩
  | .hbm, ⟨29, _⟩ => ⟨S200000x32, .f32⟩
  | .hbm, ⟨30, _⟩ => ⟨S200000x32, .f32⟩
  | .hbm, ⟨31, _⟩ => ⟨S_, .f32⟩
  | .hbm, ⟨32, _⟩ => ⟨S200000x32, .f32⟩
  | .hbm, ⟨33, _⟩ => ⟨S200000x32, .f32⟩
  | .hbm, ⟨34, _⟩ => ⟨S_, .f32⟩
  | .hbm, ⟨35, _⟩ => ⟨S200000x32, .f32⟩
  | .hbm, ⟨36, _⟩ => ⟨S200000x32, .f32⟩
  | .hbm, ⟨37, _⟩ => ⟨S1x160x32, .f32⟩
  | .hbm, ⟨38, _⟩ => ⟨S160x32, .f32⟩
  | .hbm, ⟨39, _⟩ => ⟨S1x160x32, .f32⟩
  | .hbm, ⟨40, _⟩ => ⟨S160x32, .f32⟩
  | .hbm, ⟨41, _⟩ => ⟨S160x32, .f32⟩
  | .hbm, ⟨42, _⟩ => ⟨S200000x32, .f32⟩
  | .hbm, ⟨43, _⟩ => ⟨S1x32, .f32⟩
  | .hbm, ⟨44, _⟩ => ⟨S200000x32, .f32⟩
  | .hbm, ⟨45, _⟩ => ⟨S200000x32, .f32⟩
  | .hbm, ⟨46, _⟩ => ⟨S200000x32, .f32⟩
  | .hbm, ⟨47, _⟩ => ⟨S200000x32, .f32⟩
  | .hbm, ⟨48, _⟩ => ⟨S_, .f32⟩
  | .hbm, ⟨49, _⟩ => ⟨S200000x32, .f32⟩
  | .hbm, ⟨50, _⟩ => ⟨S200000x32, .f32⟩
  | .hbm, ⟨51, _⟩ => ⟨S_, .f32⟩
  | .hbm, ⟨52, _⟩ => ⟨S200000x32, .f32⟩
  | .hbm, ⟨53, _⟩ => ⟨S200000x32, .f32⟩
  | .hbm, ⟨54, _⟩ => ⟨S200000x32, .f32⟩
  | .hbm, ⟨55, _⟩ => ⟨S200000x160, .f32⟩
  | .hbm, ⟨56, _⟩ => ⟨S1x160x32, .f32⟩
  | .hbm, ⟨57, _⟩ => ⟨S160x32, .f32⟩
  | .hbm, ⟨58, _⟩ => ⟨S1x160x32, .f32⟩
  | .hbm, ⟨59, _⟩ => ⟨S160x32, .f32⟩
  | .hbm, ⟨60, _⟩ => ⟨S160x32, .f32⟩
  | .hbm, ⟨61, _⟩ => ⟨S200000x32, .f32⟩
  | .hbm, ⟨62, _⟩ => ⟨S1x32, .f32⟩
  | .hbm, ⟨63, _⟩ => ⟨S200000x32, .f32⟩
  | .hbm, ⟨64, _⟩ => ⟨S200000x32, .f32⟩
  | .hbm, ⟨65, _⟩ => ⟨S200000x32, .f32⟩
  | .hbm, ⟨66, _⟩ => ⟨S200000x32, .f32⟩
  | .hbm, ⟨67, _⟩ => ⟨S_, .f32⟩
  | .hbm, ⟨68, _⟩ => ⟨S200000x32, .f32⟩
  | .hbm, ⟨69, _⟩ => ⟨S200000x32, .f32⟩
  | .hbm, ⟨70, _⟩ => ⟨S200000x32, .f32⟩
  | .hbm, ⟨71, _⟩ => ⟨S200000x32, .f32⟩
  | .hbm, ⟨72, _⟩ => ⟨S_, .f32⟩
  | .hbm, ⟨73, _⟩ => ⟨S200000x32, .f32⟩
  | .hbm, ⟨74, _⟩ => ⟨S200000x32, .f32⟩
  | .hbm, ⟨75, _⟩ => ⟨S200000x10, .f32⟩
  | .hbm, ⟨76, _⟩ => ⟨S1x10, .f32⟩
  | .hbm, ⟨77, _⟩ => ⟨S200000x10, .f32⟩
  | .hbm, ⟨78, _⟩ => ⟨S200000x10, .f32⟩
  | .hbm, ⟨79, _⟩ => ⟨S200000x32, .f32⟩
  | .hbm, ⟨80, _⟩ => ⟨S1x32, .f32⟩
  | .hbm, ⟨81, _⟩ => ⟨S200000x32, .f32⟩
  | .hbm, ⟨82, _⟩ => ⟨S200000x32, .f32⟩
  | .hbm, ⟨83, _⟩ => ⟨S_, .f32⟩
  | .hbm, ⟨84, _⟩ => ⟨S200000x32, .f32⟩
  | .hbm, ⟨85, _⟩ => ⟨S200000x32, .f32⟩
  | .hbm, ⟨86, _⟩ => ⟨S200000x10, .f32⟩
  | .hbm, ⟨87, _⟩ => ⟨S1x10, .f32⟩
  | .hbm, ⟨88, _⟩ => ⟨S200000x10, .f32⟩
  | .hbm, ⟨89, _⟩ => ⟨S200000x10, .f32⟩
  | .hbm, ⟨90, _⟩ => ⟨S_, .f32⟩
  | .hbm, ⟨91, _⟩ => ⟨S200000x10, .f32⟩
  | .hbm, ⟨92, _⟩ => ⟨S200000x10, .f32⟩
  | .hbm, ⟨93, _⟩ => ⟨S200000x20, .f32⟩
  | .hbm, ⟨94, _⟩ => ⟨S200000x2, .f32⟩
  | .hbm, ⟨95, _⟩ => ⟨S1x2, .f32⟩
  | .hbm, ⟨96, _⟩ => ⟨S200000x2, .f32⟩
  | .hbm, ⟨97, _⟩ => ⟨S200000x2, .f32⟩
  | .hbm, ⟨98, _⟩ => ⟨S_, .f32⟩
  | .hbm, ⟨99, _⟩ => ⟨S200000, .f32⟩
  | .hbm, ⟨100, _⟩ => ⟨S_, .f32⟩
  | .hbm, ⟨101, _⟩ => ⟨S200000, .f32⟩
  | .hbm, ⟨102, _⟩ => ⟨S200000, .f32⟩
  | .hbm, ⟨103, _⟩ => ⟨S200000x1, .f32⟩
  | .hbm, ⟨104, _⟩ => ⟨S200000x2, .f32⟩
  | .hbm, ⟨105, _⟩ => ⟨S200000x2, .f32⟩
  | .hbm, ⟨106, _⟩ => ⟨S200000x2, .f32⟩
  | .hbm, ⟨107, _⟩ => ⟨S_, .f32⟩
  | .hbm, ⟨108, _⟩ => ⟨S200000, .f32⟩
  | .hbm, ⟨109, _⟩ => ⟨S200000x1, .f32⟩
  | .hbm, ⟨110, _⟩ => ⟨S200000x2, .f32⟩
  | .hbm, ⟨111, _⟩ => ⟨S200000x2, .f32⟩
  | _, _ => ⟨S200000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_cst : Ref sig .tc := ⟨.hbm, 31, rfl⟩
abbrev main_v12 : Ref sig .tc := ⟨.hbm, 32, rfl⟩
abbrev main_v13 : Ref sig .tc := ⟨.hbm, 33, rfl⟩
abbrev main_cst_0 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_cst_1 : Ref sig .tc := ⟨.hbm, 48, rfl⟩
abbrev main_v27 : Ref sig .tc := ⟨.hbm, 49, rfl⟩
abbrev main_v28 : Ref sig .tc := ⟨.hbm, 50, rfl⟩
abbrev main_cst_2 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_cst_3 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_call0_cst : Ref sig .tc := ⟨.hbm, 72, rfl⟩
abbrev main_call0_v0 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_call1_cst : Ref sig .tc := ⟨.hbm, 83, rfl⟩
abbrev main_call1_v0 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_call2_cst : Ref sig .tc := ⟨.hbm, 90, rfl⟩
abbrev main_call2_v0 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_cst_4 : Ref sig .tc := ⟨.hbm, 98, rfl⟩
abbrev main_v68 : Ref sig .tc := ⟨.hbm, 99, rfl⟩
abbrev main_cst_5 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_cst_6 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩

abbrev nD : Nat := 1
abbrev τ : Topo := Topo.v7x

variable {F : FTy → Type} [FloatOps F]

class Facts₀ : Prop where
  concatenates_S200000x128_S200000x32_S200000x160_d1 : Shape.Concatenates [S200000x128, S200000x32] S200000x160 1
  slices_S2x160x32_S1x160x32_0_0_0 : S2x160x32.Slices ![0, 0, 0] S1x160x32
  shapeCasts_S1x160x32_S160x32 : S1x160x32.ShapeCasts S160x32
  slices_S2x160x32_S1x160x32_1_0_0 : S2x160x32.Slices ![1, 0, 0] S1x160x32
  bcast_S32_S1x32_1 : S32.BroadcastsInDim S1x32 (![1] : Fin 1 → Fin S1x32.rank)
  bcast_S1x32_S200000x32_0_1 : S1x32.BroadcastsInDim S200000x32 (![0, 1] : Fin 2 → Fin S200000x32.rank)
  bcast_S_S200000x32 : S_.BroadcastsInDim S200000x32 (![] : Fin 0 → Fin S200000x32.rank)
  bcast_S10_S1x10_1 : S10.BroadcastsInDim S1x10 (![1] : Fin 1 → Fin S1x10.rank)
  bcast_S1x10_S200000x10_0_1 : S1x10.BroadcastsInDim S200000x10 (![0, 1] : Fin 2 → Fin S200000x10.rank)
  bcast_S_S200000x10 : S_.BroadcastsInDim S200000x10 (![] : Fin 0 → Fin S200000x10.rank)
  concatenates_S200000x10_S200000x10_S200000x20_d1 : Shape.Concatenates [S200000x10, S200000x10] S200000x20 1
  bcast_S2_S1x2_1 : S2.BroadcastsInDim S1x2 (![1] : Fin 1 → Fin S1x2.rank)
  bcast_S1x2_S200000x2_0_1 : S1x2.BroadcastsInDim S200000x2 (![0, 1] : Fin 2 → Fin S200000x2.rank)
  reducesTo_S200000x2_S200000_d1 : S200000x2.ReducesTo [1] S200000
  h_S_ : 0 < S_.numel
  bcast_S_S200000 : S_.BroadcastsInDim S200000 (![] : Fin 0 → Fin S200000.rank)
  bcast_S200000_S200000x1_0 : S200000.BroadcastsInDim S200000x1 (![0] : Fin 1 → Fin S200000x1.rank)
  bcast_S200000x1_S200000x2_0_1 : S200000x1.BroadcastsInDim S200000x2 (![0, 1] : Fin 2 → Fin S200000x2.rank)
  dot_S200000x160_S160x32_S200000x32_1_0_0_1_n_n_wf : DotDims.WF S200000x160 S160x32 S200000x32 [1] [0] [0] [1] [] []
  dot_S200000x32_S32x10_S200000x10_1_0_0_1_n_n_wf : DotDims.WF S200000x32 S32x10 S200000x10 [1] [0] [0] [1] [] []
  dot_S200000x10_S10x32_S200000x32_1_0_0_1_n_n_wf : DotDims.WF S200000x10 S10x32 S200000x32 [1] [0] [0] [1] [] []
  dot_S200000x20_S20x2_S200000x2_1_0_0_1_n_n_wf : DotDims.WF S200000x20 S20x2 S200000x2 [1] [0] [0] [1] [] []

variable [Facts₀]

def dot_S200000x160_S160x32_S200000x32_1_0_0_1_n_n : DotDims S200000x160 S160x32 S200000x32 where
  lhsContracting := [1]
  rhsContracting := [0]
  lhsNonContracting := [0]
  rhsNonContracting := [1]
  lhsBatch := []
  rhsBatch := []
  wf := dot_S200000x160_S160x32_S200000x32_1_0_0_1_n_n_wf
def dot_S200000x32_S32x10_S200000x10_1_0_0_1_n_n : DotDims S200000x32 S32x10 S200000x10 where
  lhsContracting := [1]
  rhsContracting := [0]
  lhsNonContracting := [0]
  rhsNonContracting := [1]
  lhsBatch := []
  rhsBatch := []
  wf := dot_S200000x32_S32x10_S200000x10_1_0_0_1_n_n_wf
def dot_S200000x10_S10x32_S200000x32_1_0_0_1_n_n : DotDims S200000x10 S10x32 S200000x32 where
  lhsContracting := [1]
  rhsContracting := [0]
  lhsNonContracting := [0]
  rhsNonContracting := [1]
  lhsBatch := []
  rhsBatch := []
  wf := dot_S200000x10_S10x32_S200000x32_1_0_0_1_n_n_wf
def dot_S200000x20_S20x2_S200000x2_1_0_0_1_n_n : DotDims S200000x20 S20x2 S200000x2 where
  lhsContracting := [1]
  rhsContracting := [0]
  lhsNonContracting := [0]
  rhsNonContracting := [1]
  lhsBatch := []
  rhsBatch := []
  wf := dot_S200000x20_S20x2_S200000x2_1_0_0_1_n_n_wf

class Facts : Prop extends Facts₀ where

variable [Facts]
-- ==== Proof.LibRowOps.lean ====
/-
  Matrix operations read at an entry `(r, k)`, at the ideal values and at any extents: a plain matrix product
  accumulated into a zero splat is the sum over the contracted coordinate of the products of the entries, and two
  matrices joined along their columns read the left one where the column falls in it and the right one, the left
  extent less, past it.  Also: a sum and a maximum along the columns of a matrix, at row `r`, as a sum and a fold over
  the column coordinate.
-/
import Idealize.ShloMosaic.Lib.StackMember
import Idealize.ShloMosaic.Lib.KernelVsHost
import Idealize.ShloMosaic.Lib.ValueLayout
import Idealize.ShloMosaic.PureOps.Ideal.Laws

noncomputable section

namespace Idealize.ShloMosaic.RowOps

open Idealize.ShloMosaic Idealize.ShloMosaic.ValueIdx

/-- A kernel's plain `[m, k] × [k, n]` product into a zero accumulator, at `(a, b)`: `∑ c, A (a, c) · B (c, b)`. -/
theorem matmul_plain_apply {m k n : ℕ} {φ₁ φ₂ : FTy} (prec : Option ContractPrecision)
    (A : FVec Ideal ⟨2, ![m, k]⟩ φ₁) (B : FVec Ideal ⟨2, ![k, n]⟩ φ₂) (a : Fin m) (b : Fin n) :
    matmul (DotDims.plain m k n) prec A B (constant ⟨2, ![m, n]⟩ .f32 0x00000000#32) (ix2 a b)
      = ∑ c : Fin k, A (ix2 a c) * B (ix2 c b) := by
  rw [matmul_zero_eq_dotGeneral]
  exact StackMember.dotGeneral_plain_apply prec A B a b

/-- Two matrices joined along their columns, at `(r, k)`: the left one at `(r, k)` while `k` is below its width, the
    right one at `(r, k − a)` from there on. -/
theorem concat_cols_apply {α : Type} {m a b c : ℕ} (x : (⟨2, ![m, a]⟩ : Shape).Idx → α) (y : (⟨2, ![m, b]⟩ : Shape).Idx → α)
    (h : Shape.Concatenates [⟨2, ![m, a]⟩, ⟨2, ![m, b]⟩] ⟨2, ![m, c]⟩ 1) (hc : a + b = c) (r : Fin m) (k : Fin c) :
    concatenate ⟨2, ![m, c]⟩ 1 [⟨⟨2, ![m, a]⟩, x⟩, ⟨⟨2, ![m, b]⟩, y⟩] h (ix2 r k)
      = if hk : k.val < a then x (ix2 r ⟨k.val, hk⟩) else y (ix2 r ⟨k.val - a, by have := k.isLt; omega⟩) := by
  split
  · next hk =>
    refine concatenate_pair_apply_left 1 x y h (ix2 r k) rfl (ix2 r ⟨k.val, hk⟩) fun ax => ?_
    match ax with
    | ⟨0, _⟩ => rfl
    | ⟨1, _⟩ => rfl
  · next hk =>
    refine concatenate_pair_apply_right 1 x y h (ix2 r k) rfl rfl (ix2 r ⟨k.val - a, by have := k.isLt; omega⟩)
      (fun ax hne => ?_) ?_
    · match ax with
      | ⟨0, _⟩ => rfl
      | ⟨1, _⟩ => exact absurd rfl hne
    · show k.val - a + a = k.val
      omega

/-- The index a reduction along the columns rebuilds from row `r` and column `k` is `(r, k)`. -/
theorem lift_cols {m n : ℕ} (h : (⟨2, ![m, n]⟩ : Shape).Reduces [1] (⟨1, ![m]⟩ : Shape)) (r : Fin m)
    (k : Fin ((⟨2, ![m, n]⟩ : Shape).size 1)) : h.lift (ix1 r) k = ix2 r (⟨k.val, k.isLt⟩ : Fin n) := by
  funext c; apply Fin.ext
  match c with
  | ⟨0, _⟩ => rfl
  | ⟨1, _⟩ => rfl

end Idealize.ShloMosaic.RowOps

end
-- ==== Proof.RowNet.lean ====
/-
  The function both programs compute, one row at a time.  Row `r` of the result depends only on row `r` of the three
  large inputs (features `x`, labels `y`, hidden state `h`) and on the weights:

    Z  = σ([x, h] · Wz + bz)            R  = σ([x, h] · Wr + br)
    H̃  = tanh([x, R ⊙ h] · Wh + bh)     Hn = Z ⊙ h + (1 − Z) ⊙ H̃
    a  = relu(Hn) · L + lb              y₂ = relu(relu(y · A₁ + b₁) · A₂ + b₂)
    ℓ  = [a, y₂] · C + cb               result = softmax(ℓ)

  with each gate weight the sum of its two diffusion directions, `W = w[0] + w[1]`.  Everything is over the extended
  reals; sums are `Finset` sums over the contracted coordinate, `[·, ·]` joins two rows end to end, and the softmax
  subtracts the row's maximum (taken from −∞) before exponentiating.  The three float literals that occur (0, 1, −∞) are
  kept as their bit patterns, the same on both sides.
-/
import Idealize.ShloMosaic.PureOps.Ideal
import Idealize.ShloMosaic.Lib.ValueIdx

noncomputable section

namespace Cert.RowNet

open Idealize.ShloMosaic Idealize.ShloMosaic.ValueIdx

/-- Row `r` of a matrix. -/
def row {N d : ℕ} (X : (⟨2, ![N, d]⟩ : Shape).Idx → EReal) (r : Fin N) : Fin d → EReal := fun k => X (ix2 r k)

/-- A matrix as a function of its two coordinates. -/
def mat {a b : ℕ} (W : (⟨2, ![a, b]⟩ : Shape).Idx → EReal) : Fin a → Fin b → EReal := fun k j => W (ix2 k j)

/-- A vector as a function of its coordinate. -/
def vec {n : ℕ} (b : (⟨1, ![n]⟩ : Shape).Idx → EReal) : Fin n → EReal := fun j => b (ix1 j)

/-- The one row of a one-row matrix. -/
def vec1 {n : ℕ} (b : (⟨2, ![1, n]⟩ : Shape).Idx → EReal) : Fin n → EReal := fun j => b (ix2 0 j)

/-- The sum of the two slabs of a `[2, a, b]` array: a gate's weight, both diffusion directions together. -/
def wsum {a b : ℕ} (w : (⟨3, ![2, a, b]⟩ : Shape).Idx → EReal) : Fin a → Fin b → EReal :=
  fun k j => w (ix3 0 k j) + w (ix3 1 k j)

/-- The three float literals of the programs. -/
def zero : EReal := Ideal.ofBits .f32 0x00000000#32
def one : EReal := Ideal.ofBits .f32 0x3F800000#32
def negInf : EReal := Ideal.ofBits .f32 0xFF800000#32

/-- Two rows joined end to end. -/
def join {a b c : ℕ} (hc : a + b = c) (u : Fin a → EReal) (v : Fin b → EReal) : Fin c → EReal :=
  fun k => if h : k.val < a then u ⟨k.val, h⟩ else v ⟨k.val - a, by have := k.isLt; omega⟩

/-- A row times a matrix. -/
def dot {K N : ℕ} (u : Fin K → EReal) (W : Fin K → Fin N → EReal) : Fin N → EReal := fun j => ∑ k, u k * W k j

/-- A row times a matrix, plus a bias. -/
def dense {K N : ℕ} (u : Fin K → EReal) (W : Fin K → Fin N → EReal) (b : Fin N → EReal) : Fin N → EReal :=
  fun j => dot u W j + b j

def relu {n : ℕ} (v : Fin n → EReal) : Fin n → EReal := fun k => max (v k) zero

/-- A sigmoid gate of the GRU cell. -/
def gate {K N : ℕ} (u : Fin K → EReal) (W : Fin K → Fin N → EReal) (b : Fin N → EReal) : Fin N → EReal :=
  fun j => Ideal.logistic (dense u W b j)

/-- The GRU cell's new hidden row. -/
def hidden (x : Fin 128 → EReal) (h : Fin 32 → EReal) (Wz : Fin 160 → Fin 32 → EReal) (bz : Fin 32 → EReal)
    (Wr : Fin 160 → Fin 32 → EReal) (br : Fin 32 → EReal) (Wh : Fin 160 → Fin 32 → EReal) (bh : Fin 32 → EReal) :
    Fin 32 → EReal :=
  fun j => gate (join (c := 160) rfl x h) Wz bz j * h j
    + (one - gate (join (c := 160) rfl x h) Wz bz j)
      * Ideal.tanh (dense (join (c := 160) rfl x (fun i => gate (join (c := 160) rfl x h) Wr br i * h i)) Wh bh j)

/-- The head's two logits before the last bias: the hidden row's and the labels' branches joined, times `C`. -/
def head (y : Fin 10 → EReal) (hn : Fin 32 → EReal) (L : Fin 32 → Fin 10 → EReal) (lb : Fin 10 → EReal)
    (A₁ : Fin 10 → Fin 32 → EReal) (b₁ : Fin 32 → EReal) (A₂ : Fin 32 → Fin 10 → EReal) (b₂ : Fin 10 → EReal)
    (C : Fin 20 → Fin 2 → EReal) : Fin 2 → EReal :=
  dot (join (c := 20) rfl (dense (relu hn) L lb) (relu (dense (relu (dense y A₁ b₁)) A₂ b₂))) C

/-- The softmax of a row of two logits, the row's maximum (from −∞) subtracted first. -/
def softmax2 (l : Fin 2 → EReal) : Fin 2 → EReal :=
  fun q => Ideal.div (Ideal.exp (l q - max negInf ((Finset.univ : Finset (Fin 2)).fold max negInf l)))
    (∑ k, Ideal.exp (l k - max negInf ((Finset.univ : Finset (Fin 2)).fold max negInf l)))

/-- The whole result array as one function of the argument arrays. -/
def G (X : (⟨2, ![200000, 128]⟩ : Shape).Idx → EReal) (Y : (⟨2, ![200000, 10]⟩ : Shape).Idx → EReal)
    (H : (⟨2, ![200000, 32]⟩ : Shape).Idx → EReal)
    (wz : (⟨3, ![2, 160, 32]⟩ : Shape).Idx → EReal) (bz : (⟨1, ![32]⟩ : Shape).Idx → EReal)
    (wr : (⟨3, ![2, 160, 32]⟩ : Shape).Idx → EReal) (br : (⟨1, ![32]⟩ : Shape).Idx → EReal)
    (wh : (⟨3, ![2, 160, 32]⟩ : Shape).Idx → EReal) (bh : (⟨1, ![32]⟩ : Shape).Idx → EReal)
    (lw : (⟨2, ![32, 10]⟩ : Shape).Idx → EReal) (lb : (⟨1, ![10]⟩ : Shape).Idx → EReal)
    (a₁ : (⟨2, ![10, 32]⟩ : Shape).Idx → EReal) (b₁ : (⟨1, ![32]⟩ : Shape).Idx → EReal)
    (a₂ : (⟨2, ![32, 10]⟩ : Shape).Idx → EReal) (b₂ : (⟨1, ![10]⟩ : Shape).Idx → EReal)
    (cw : (⟨2, ![20, 2]⟩ : Shape).Idx → EReal) (cb : (⟨1, ![2]⟩ : Shape).Idx → EReal) :
    (⟨2, ![200000, 2]⟩ : Shape).Idx → EReal :=
  fun i => softmax2 (fun q =>
    head (row Y (i 0)) (hidden (row X (i 0)) (row H (i 0)) (wsum wz) (vec bz) (wsum wr) (vec br) (wsum wh) (vec bh))
      (mat lw) (vec lb) (mat a₁) (vec b₁) (mat a₂) (vec b₂) (mat cw) q + vec cb q) (i 1)

end Cert.RowNet

end
-- ==== Proof.KernelRows.lean ====
/-
  The kernel's body, one row at a time.  Every value the body computes from its blocks is a matrix of 2000 rows, and
  row `p` of each depends only on row `p` of the three large blocks and on the resident weights.  Reading the body's
  operations a row at a time — a matrix product as a row times a matrix, a one-row bias laid down the rows as that row,
  two matrices joined along the columns as their rows joined, the pointwise operations entry by entry — gives the row
  functions of the specification: the GRU cell's new hidden row, and the head's two logits before their bias.
  A change of float format is the identity at the ideal values, so the casts to bf16 drop out.
-/
import proofs.«133364_j45801531244823_1_alg».proof.Proof.Gen.KernelIdeal.Skeleton
import proofs.«133364_j45801531244823_1_alg».proof.Proof.LibRowOps
import proofs.«133364_j45801531244823_1_alg».proof.Proof.RowNet

noncomputable section

namespace Cert.KernelIdeal.Rows

open Cert.KernelIdeal Cert.KernelIdeal.Gen Idealize.ShloMosaic Idealize.ShloMosaic.ValueIdx
  Idealize.ShloMosaic.RowOps Cert.RowNet

variable (p : Fin 2000)

/-! ## Rows of joined blocks -/

theorem row_cat160 (a : FVec Ideal S2000x128 .f32) (b : FVec Ideal S2000x32 .f32) :
    row (concatenate S2000x160 1 [⟨S2000x128, a⟩, ⟨S2000x32, b⟩] concatenates_S2000x128_S2000x32_S2000x160_d1) p
      = join (c := 160) rfl (row a p) (row b p) :=
  funext fun k => concat_cols_apply a b concatenates_S2000x128_S2000x32_S2000x160_d1 rfl p k

theorem row_cat20 (a b : FVec Ideal S2000x10 .f32) :
    row (concatenate S2000x20 1 [⟨S2000x10, a⟩, ⟨S2000x10, b⟩] concatenates_S2000x10_S2000x10_S2000x20_d1) p
      = join (c := 20) rfl (row a p) (row b p) :=
  funext fun k => concat_cols_apply a b concatenates_S2000x10_S2000x10_S2000x20_d1 rfl p k

/-! ## Rows of the matrix products (the weights loaded whole, the left operand cast to bf16) -/

theorem row_mm_160_32 (u : FVec Ideal S2000x160 .f32) (w : Vec Ideal S160x32 .bf16) :
    row (matmul (φ₁ := .bf16) (φ₂ := .bf16) dot_S2000x160_S160x32_S2000x32_1_0_0_1_n_n none (truncf .bf16 u bitsLt_bf16_f32)
      (shapeCast S160x32 w shapeCasts_S160x32_S160x32) (constant S2000x32 .f32 0x00000000#32)) p
      = dot (row u p) (mat w) := by
  rw [shapeCast_self]
  exact funext fun j => matmul_plain_apply (φ₁ := .bf16) (φ₂ := .bf16) none (truncf .bf16 u bitsLt_bf16_f32) w p j

theorem row_mm_32_10 (u : FVec Ideal S2000x32 .f32) (w : Vec Ideal S32x10 .bf16) :
    row (matmul (φ₁ := .bf16) (φ₂ := .bf16) dot_S2000x32_S32x10_S2000x10_1_0_0_1_n_n none (truncf .bf16 u bitsLt_bf16_f32)
      (shapeCast S32x10 w shapeCasts_S32x10_S32x10) (constant S2000x10 .f32 0x00000000#32)) p
      = dot (row u p) (mat w) := by
  rw [shapeCast_self]
  exact funext fun j => matmul_plain_apply (φ₁ := .bf16) (φ₂ := .bf16) none (truncf .bf16 u bitsLt_bf16_f32) w p j

theorem row_mm_10_32 (u : FVec Ideal S2000x10 .f32) (w : Vec Ideal S10x32 .bf16) :
    row (matmul (φ₁ := .bf16) (φ₂ := .bf16) dot_S2000x10_S10x32_S2000x32_1_0_0_1_n_n none (truncf .bf16 u bitsLt_bf16_f32)
      (shapeCast S10x32 w shapeCasts_S10x32_S10x32) (constant S2000x32 .f32 0x00000000#32)) p
      = dot (row u p) (mat w) := by
  rw [shapeCast_self]
  exact funext fun j => matmul_plain_apply (φ₁ := .bf16) (φ₂ := .bf16) none (truncf .bf16 u bitsLt_bf16_f32) w p j

theorem row_mm_20_2 (u : FVec Ideal S2000x20 .f32) (w : Vec Ideal S20x2 .bf16) :
    row (matmul (φ₁ := .bf16) (φ₂ := .bf16) dot_S2000x20_S20x2_S2000x2_1_0_0_1_n_n none (truncf .bf16 u bitsLt_bf16_f32)
      (shapeCast S20x2 w shapeCasts_S20x2_S20x2) (constant S2000x2 .f32 0x00000000#32)) p
      = dot (row u p) (mat w) := by
  rw [shapeCast_self]
  exact funext fun j => matmul_plain_apply (φ₁ := .bf16) (φ₂ := .bf16) none (truncf .bf16 u bitsLt_bf16_f32) w p j

/-! ## Rows of a one-row bias laid down the rows -/

theorem row_bias32 (b : Vec Ideal S1x32 .f32) :
    row (broadcastTo S2000x32 (shapeCast S1x32 b shapeCasts_S1x32_S1x32) broadcasts_S1x32_S2000x32) p = vec1 b := by
  rw [shapeCast_self]
  exact funext fun j => broadcastTo_1b_ab_apply b broadcasts_S1x32_S2000x32 p j

theorem row_bias10 (b : Vec Ideal S1x10 .f32) :
    row (broadcastTo S2000x10 (shapeCast S1x10 b shapeCasts_S1x10_S1x10) broadcasts_S1x10_S2000x10) p = vec1 b := by
  rw [shapeCast_self]
  exact funext fun j => broadcastTo_1b_ab_apply b broadcasts_S1x10_S2000x10 p j

/-! ## Rows of the pointwise operations -/

theorem row_addf {n : ℕ} (a b : FVec Ideal ⟨2, ![2000, n]⟩ .f32) : row (addf a b) p = fun i => row a p i + row b p i := rfl
theorem row_subf {n : ℕ} (a b : FVec Ideal ⟨2, ![2000, n]⟩ .f32) : row (subf a b) p = fun i => row a p i - row b p i := rfl
theorem row_mulf {n : ℕ} (a b : FVec Ideal ⟨2, ![2000, n]⟩ .f32) : row (mulf a b) p = fun i => row a p i * row b p i := rfl
theorem row_maximumf {n : ℕ} (a b : FVec Ideal ⟨2, ![2000, n]⟩ .f32) :
    row (maximumf a b) p = fun i => max (row a p i) (row b p i) := rfl
theorem row_logistic {n : ℕ} (a : FVec Ideal ⟨2, ![2000, n]⟩ .f32) :
    row (logistic a) p = fun i => Ideal.logistic (row a p i) := rfl
theorem row_tanh {n : ℕ} (a : FVec Ideal ⟨2, ![2000, n]⟩ .f32) : row (tanh a) p = fun i => Ideal.tanh (row a p i) := rfl
theorem row_splat {n : ℕ} (c : Ideal .f32) : row (broadcast (⟨2, ![2000, n]⟩ : Shape) c) p = fun _ => c := rfl

/-! ## The two payloads, a row at a time -/

/-- Row `p` of the GRU stage is the cell's new hidden row, of row `p` of the feature and hidden blocks. -/
theorem pay2_row (v0 : Vec Ideal S2000x128 .f32) (v1 : Vec Ideal S2000x32 .f32) (v5 : Vec Ideal S160x32 .bf16)
    (v8 : Vec Ideal S1x32 .f32) (v13 : Vec Ideal S160x32 .bf16) (v16 : Vec Ideal S1x32 .f32)
    (v24 : Vec Ideal S160x32 .bf16) (v27 : Vec Ideal S1x32 .f32) :
    row (k0_pay2 v0 v1 v5 v8 v13 v16 v24 v27) p
      = hidden (row v0 p) (row v1 p) (mat v5) (vec1 v8) (mat v13) (vec1 v16) (mat v24) (vec1 v27) := by
  unfold k0_pay2
  simp only [row_addf, row_subf, row_mulf, row_logistic, row_tanh, row_splat, row_mm_160_32, row_bias32, row_cat160]
  rfl

/-- Row `p` of the head stage is the two logits before their bias, of row `p` of the label block and of the hidden rows. -/
theorem pay3_row (v2 : Vec Ideal S2000x10 .f32) (v36 : FVec Ideal S2000x32 .f32) (v40 : Vec Ideal S32x10 .bf16)
    (v43 : Vec Ideal S1x10 .f32) (v48 : Vec Ideal S10x32 .bf16) (v51 : Vec Ideal S1x32 .f32)
    (v58 : Vec Ideal S32x10 .bf16) (v61 : Vec Ideal S1x10 .f32) (v69 : Vec Ideal S20x2 .bf16) :
    row (k0_pay3 v2 v36 v40 v43 v48 v51 v58 v61 v69) p
      = head (row v2 p) (row v36 p) (mat v40) (vec1 v43) (mat v48) (vec1 v51) (mat v58) (vec1 v61) (mat v69) := by
  unfold k0_pay3
  simp only [row_addf, row_maximumf, row_splat, row_mm_32_10, row_mm_10_32, row_mm_20_2, row_bias32, row_bias10,
    row_cat20]
  rfl

end Cert.KernelIdeal.Rows

end
-- ==== Proof.LibColOps.lean ====
/-
  Operations along the columns of a matrix, read at a row, at the ideal values and at any extents: a column laid across
  the columns (a kernel's cast to one column and broadcast; a host's two `broadcast_in_dim`s), a row vector laid down the
  rows by the host, a sum and a maximum along the columns (a kernel's `multi_reduction`, a host's `reduce`), and the sum of
  the two slabs of a `[2, a, b]` array as the host takes it (two slices, each cast to `[a, b]`, added).
-/
import Idealize.ShloMosaic.Lib.KernelVsHost
import Idealize.ShloMosaic.Lib.IdealHost
import Idealize.ShloMosaic.Lib.ValueLayout
import Idealize.ShloMosaic.PureOps.Ideal.Laws
import proofs.«133364_j45801531244823_1_alg».proof.Proof.LibRowOps

noncomputable section

namespace Idealize.ShloMosaic.RowOps

open Idealize.ShloMosaic Idealize.ShloMosaic.ValueIdx

variable {α : Type}

/-- A vector of `m` entries cast to one column and broadcast across `n` columns, at `(r, j)`: entry `r`. -/
theorem bcast_col_apply {m n : ℕ} (v : (⟨1, ![m]⟩ : Shape).Idx → α) (h1 : (⟨1, ![m]⟩ : Shape).ShapeCasts ⟨2, ![m, 1]⟩)
    (h2 : (⟨2, ![m, 1]⟩ : Shape).Broadcasts ⟨2, ![m, n]⟩) (r : Fin m) (j : Fin n) :
    broadcastTo ⟨2, ![m, n]⟩ (shapeCast ⟨2, ![m, 1]⟩ v h1) h2 (ix2 r j) = v (ix1 r) := by
  refine (broadcastTo_apply _ h2 (ix2 r j) (ix2 r (0 : Fin 1)) fun ax => ?_).trans ?_
  · match ax with
    | ⟨0, _⟩ =>
      show r.val = if m = 1 then 0 else r.val
      split
      · have := r.isLt; omega
      · rfl
    | ⟨1, _⟩ =>
      show (0 : ℕ) = if (1 : ℕ) = 1 then 0 else j.val
      rw [if_pos rfl]
  · exact shapeCast_apply v h1 (ix2 r (0 : Fin 1)) (ix1 r) (by
      rw [Shape.rowMajor_val_one, Shape.rowMajor_val_two]
      show r.val = r.val * 1 + 0
      omega)

/-- The host's form of the same: `broadcast_in_dim` to one column, then across the columns. -/
theorem host_bcast_col_apply {m n : ℕ} (v : (⟨1, ![m]⟩ : Shape).Idx → α)
    (h1 : (⟨1, ![m]⟩ : Shape).BroadcastsInDim ⟨2, ![m, 1]⟩ ![0])
    (h2 : (⟨2, ![m, 1]⟩ : Shape).BroadcastsInDim ⟨2, ![m, n]⟩ ![0, 1]) (r : Fin m) (j : Fin n) :
    broadcastInDim ⟨2, ![m, n]⟩ ![0, 1] h2 (broadcastInDim ⟨2, ![m, 1]⟩ ![0] h1 v) (ix2 r j) = v (ix1 r) := by
  refine (broadcastInDim_apply ![0, 1] h2 _ (ix2 r j) (ix2 r (0 : Fin 1)) fun ax => ?_).trans ?_
  · match ax with
    | ⟨0, _⟩ =>
      show r.val = if m = 1 then 0 else r.val
      split
      · have := r.isLt; omega
      · rfl
    | ⟨1, _⟩ =>
      show (0 : ℕ) = if (1 : ℕ) = 1 then 0 else j.val
      rw [if_pos rfl]
  · refine broadcastInDim_apply ![0] h1 v (ix2 r (0 : Fin 1)) (ix1 r) fun ax => ?_
    match ax with
    | ⟨0, _⟩ =>
      show r.val = if m = 1 then 0 else r.val
      split
      · have := r.isLt; omega
      · rfl

/-- A vector of `n` entries laid by the host along each of `m` rows (`broadcast_in_dim` to one row, then down the
    rows), at `(r, j)`: entry `j`. -/
theorem host_bias_apply {m n : ℕ} (b : (⟨1, ![n]⟩ : Shape).Idx → α)
    (h1 : (⟨1, ![n]⟩ : Shape).BroadcastsInDim ⟨2, ![1, n]⟩ ![1])
    (h2 : (⟨2, ![1, n]⟩ : Shape).BroadcastsInDim ⟨2, ![m, n]⟩ ![0, 1]) (r : Fin m) (j : Fin n) :
    broadcastInDim ⟨2, ![m, n]⟩ ![0, 1] h2 (broadcastInDim ⟨2, ![1, n]⟩ ![1] h1 b) (ix2 r j) = b (ix1 j) := by
  refine (broadcastInDim_oneRow_apply h2 _ r j).trans ?_
  refine broadcastInDim_apply ![1] h1 b (ix2 (0 : Fin 1) j) (ix1 j) fun ax => ?_
  match ax with
  | ⟨0, _⟩ =>
    show j.val = if n = 1 then 0 else j.val
    split
    · have := j.isLt; omega
    · rfl

/-- A kernel's sum along the columns, at row `r`. -/
theorem sum_cols_apply {m n : ℕ} {φ : FTy} (src : FVec Ideal ⟨2, ![m, n]⟩ φ) (acc : BitVec φ.bits)
    (h : (⟨2, ![m, n]⟩ : Shape).Reduces [1] (⟨1, ![m]⟩ : Shape)) (hφ : FKind.Formats φ)
    (hacc : acc = FKind.add.neutral φ hφ) (r : Fin m) :
    multiReduction .add [1] ⟨1, ![m]⟩ src acc h hφ hacc (ix1 r) = ∑ k : Fin n, src (ix2 r k) :=
  (Ideal.multiReduction_add_single src acc h hφ hacc (ix1 r)).trans
    (Finset.sum_congr rfl fun k _ => congrArg src (lift_cols h r k))

/-- A kernel's maximum along the columns, at row `r`: the fold of `max` from the accumulator's value. -/
theorem max_cols_apply {m n : ℕ} {φ : FTy} (src : FVec Ideal ⟨2, ![m, n]⟩ φ) (acc : BitVec φ.bits)
    (h : (⟨2, ![m, n]⟩ : Shape).Reduces [1] (⟨1, ![m]⟩ : Shape)) (hφ : FKind.Formats φ)
    (hacc : acc = FKind.maximumf.neutral φ hφ) (r : Fin m) :
    multiReduction .maximumf [1] ⟨1, ![m]⟩ src acc h hφ hacc (ix1 r)
      = (Finset.univ : Finset (Fin n)).fold max (Ideal.ofBits φ acc) (fun k => src (ix2 r k)) := by
  rw [Ideal.multiReduction_maximumf_single src acc h hφ hacc (ix1 r)]
  exact congrArg (fun f => Finset.fold max (Ideal.ofBits φ acc) f (Finset.univ : Finset (Fin n)))
    (funext fun k => congrArg src (lift_cols h r k))

/-- The host's sum along the columns, at row `r`: the initial value plus the sum. -/
theorem host_sum_cols_apply {m n : ℕ} {φ : FTy} (x : FVec Ideal ⟨2, ![m, n]⟩ φ) (init : (⟨0, ![]⟩ : Shape).Idx → Ideal φ)
    (h' : (⟨2, ![m, n]⟩ : Shape).ReducesTo [1] (⟨1, ![m]⟩ : Shape))
    (h : (⟨2, ![m, n]⟩ : Shape).Reduces [1] (⟨1, ![m]⟩ : Shape)) (hu : 0 < (⟨0, ![]⟩ : Shape).numel) (r : Fin m) :
    Host.reduceAdd x init h' hu (ix1 r) = init (Shape.Idx.first hu) + ∑ k : Fin n, x (ix2 r k) := by
  rw [hostReduceAdd_apply, Ideal.hostReduceAdd_single h' h]
  exact congrArg (init (Shape.Idx.first hu) + ·) (Finset.sum_congr rfl fun k _ => congrArg x (lift_cols h r k))

/-- The host's maximum along the columns, at row `r`: the fold of `max` from the initial value. -/
theorem host_max_cols_apply {m n : ℕ} {φ : FTy} (x : FVec Ideal ⟨2, ![m, n]⟩ φ) (init : (⟨0, ![]⟩ : Shape).Idx → Ideal φ)
    (h' : (⟨2, ![m, n]⟩ : Shape).ReducesTo [1] (⟨1, ![m]⟩ : Shape))
    (h : (⟨2, ![m, n]⟩ : Shape).Reduces [1] (⟨1, ![m]⟩ : Shape)) (hu : 0 < (⟨0, ![]⟩ : Shape).numel) (r : Fin m) :
    Host.reduce FloatOps.maximumf x init h' hu (ix1 r)
      = (Finset.univ : Finset (Fin n)).fold max (init (Shape.Idx.first hu)) (fun k => x (ix2 r k)) := by
  rw [Host.reduce_eq_fold_single FloatOps.maximumf x init h' h hu (ix1 r)]
  exact congrArg (fun f => Finset.fold max (init (Shape.Idx.first hu)) f (Finset.univ : Finset (Fin n)))
    (funext fun k => congrArg x (lift_cols h r k))

/-- The two slabs of a `[2, a, b]` array, each sliced out and cast to `[a, b]`, added: at `(k, j)` the sum of the two
    slabs' entries there. -/
theorem slab_sum_apply {a b : ℕ} {φ : FTy} (w : FVec Ideal ⟨3, ![2, a, b]⟩ φ)
    (hs0 : (⟨3, ![2, a, b]⟩ : Shape).Slices ![0, 0, 0] ⟨3, ![1, a, b]⟩)
    (hs1 : (⟨3, ![2, a, b]⟩ : Shape).Slices ![1, 0, 0] ⟨3, ![1, a, b]⟩)
    (hc : (⟨3, ![1, a, b]⟩ : Shape).ShapeCasts ⟨2, ![a, b]⟩) (k : Fin a) (j : Fin b) :
    addf (shapeCast ⟨2, ![a, b]⟩ (extractStridedSlice ⟨3, ![1, a, b]⟩ ![0, 0, 0] w hs0) hc)
        (shapeCast ⟨2, ![a, b]⟩ (extractStridedSlice ⟨3, ![1, a, b]⟩ ![1, 0, 0] w hs1) hc) (ix2 k j)
      = w (ix3 (0 : Fin 2) k j) + w (ix3 (1 : Fin 2) k j) := by
  show shapeCast ⟨2, ![a, b]⟩ (extractStridedSlice ⟨3, ![1, a, b]⟩ ![0, 0, 0] w hs0) hc (ix2 k j)
      + shapeCast ⟨2, ![a, b]⟩ (extractStridedSlice ⟨3, ![1, a, b]⟩ ![1, 0, 0] w hs1) hc (ix2 k j) = _
  rw [shapeCast_1ab_ab_apply, shapeCast_1ab_ab_apply]
  refine congrArg₂ (· + ·) ?_ ?_
  · refine extractStridedSlice_apply ![0, 0, 0] w hs0 _ (ix3 (0 : Fin 2) k j) fun ax => ?_
    match ax with
    | ⟨0, _⟩ => rfl
    | ⟨1, _⟩ => show k.val = 0 + k.val; omega
    | ⟨2, _⟩ => show j.val = 0 + j.val; omega
  · refine extractStridedSlice_apply ![1, 0, 0] w hs1 _ (ix3 (1 : Fin 2) k j) fun ax => ?_
    match ax with
    | ⟨0, _⟩ => rfl
    | ⟨1, _⟩ => show k.val = 0 + k.val; omega
    | ⟨2, _⟩ => show j.val = 0 + j.val; omega

end Idealize.ShloMosaic.RowOps

end
-- ==== Proof.KernelSoftmax.lean ====
/-
  The kernel's last stage, one row at a time: the two logits of row `p` get their bias, the row's maximum (taken from
  −∞, and once more against −∞) is subtracted, the exponentials are taken and divided by their sum.  The maximum and the
  sum run along the two columns; each is cast to one column and laid back across the columns, so every entry of row `p`
  sees row `p`'s own maximum and sum.  That is the softmax of the row.
-/
import proofs.«133364_j45801531244823_1_alg».proof.Proof.KernelRows
import proofs.«133364_j45801531244823_1_alg».proof.Proof.LibColOps

noncomputable section

namespace Cert.KernelIdeal.Rows

open Cert.KernelIdeal Cert.KernelIdeal.Gen Idealize.ShloMosaic Idealize.ShloMosaic.ValueIdx
  Idealize.ShloMosaic.RowOps Cert.RowNet

variable (p : Fin 2000)

theorem row_bias2 (b : FVec Ideal S1x2 .f32) :
    row (broadcastTo S2000x2 b broadcasts_S1x2_S2000x2) p = vec1 b :=
  funext fun j => broadcastTo_1b_ab_apply b broadcasts_S1x2_S2000x2 p j

/-- A per-row value laid across the two columns: every entry of row `p` reads the value of row `p`. -/
theorem row_col2 (v : FVec Ideal S2000 .f32) :
    row (broadcastTo S2000x2 (shapeCast S2000x1 v shapeCasts_S2000_S2000x1) broadcasts_S2000x1_S2000x2) p
      = fun _ => v (ix1 p) :=
  funext fun j => bcast_col_apply v shapeCasts_S2000_S2000x1 broadcasts_S2000x1_S2000x2 p j

theorem max_cols_row (src : FVec Ideal S2000x2 .f32) :
    multiReduction .maximumf [1] S2000 src 0xFF800000#32 reduces_S2000x2_S2000 (.inl rfl) rfl (ix1 p)
      = (Finset.univ : Finset (Fin 2)).fold max negInf (row src p) :=
  max_cols_apply src 0xFF800000#32 reduces_S2000x2_S2000 (.inl rfl) rfl p

theorem sum_cols_row (src : FVec Ideal S2000x2 .f32) :
    multiReduction .add [1] S2000 src 0x00000000#32 reduces_S2000x2_S2000 (.inl rfl) rfl (ix1 p)
      = ∑ k : Fin 2, row src p k :=
  sum_cols_apply src 0x00000000#32 reduces_S2000x2_S2000 (.inl rfl) rfl p

theorem row_divf {n : ℕ} (a b : FVec Ideal ⟨2, ![2000, n]⟩ .f32) :
    row (divf a b) p = fun i => Ideal.div (row a p i) (row b p i) := rfl
theorem row_exp {n : ℕ} (a : FVec Ideal ⟨2, ![2000, n]⟩ .f32) : row (exp a) p = fun i => Ideal.exp (row a p i) := rfl

/-- Row `p` of the last stage is the softmax of row `p`'s two biased logits. -/
theorem pay1_row (v71 : FVec Ideal S2000x2 .f32) (v73 : FVec Ideal S1x2 .f32) :
    row (k0_pay1 v71 v73) p = softmax2 (fun q => row v71 p q + vec1 v73 q) := by
  unfold k0_pay1
  simp only [row_divf, row_exp, row_subf, row_addf, row_col2, row_bias2, maximumf_apply, broadcast_apply]
  rw [sum_cols_row p]
  simp only [row_exp, row_subf, row_addf, row_col2, row_bias2, maximumf_apply, broadcast_apply]
  rw [max_cols_row p]
  simp only [row_addf, row_bias2]
  rfl

end Cert.KernelIdeal.Rows

end
-- ==== Proof.KernelBody.lean ====
/-
  What one grid point leaves in the output block, one row at a time.  The body loads its seventeen blocks whole and
  stores one value over the whole output block, so the block it leaves is that value: the last stage of the head stage of
  the GRU stage of the loaded blocks.  Row `p` of it is the specification's row function of row `p` of the feature,
  label and hidden blocks and of the resident weight blocks.
-/
import proofs.«133364_j45801531244823_1_alg».proof.Proof.Gen.KernelIdeal.Frame
import proofs.«133364_j45801531244823_1_alg».proof.Proof.KernelSoftmax

noncomputable section

namespace Cert.KernelIdeal.Rows

open Cert.KernelIdeal Cert.KernelIdeal.Gen Idealize.ShloMosaic Idealize.ShloMosaic.ValueIdx
  Idealize.ShloMosaic.RowOps Cert.RowNet

theorem zero_offsets : (![0, 0] : Fin 2 → Nat) = fun _ => 0 := funext fun a => by fin_cases a <;> rfl

/-- Row `p` of the block a point leaves. -/
theorem out_row (x0 : Vec Ideal S2000x128 .f32) (x1 : Vec Ideal S2000x10 .f32) (x2 : Vec Ideal S2000x32 .f32) (x3 : Vec Ideal S160x32 .bf16) (x4 : Vec Ideal S1x32 .f32) (x5 : Vec Ideal S160x32 .bf16) (x6 : Vec Ideal S1x32 .f32) (x7 : Vec Ideal S160x32 .bf16) (x8 : Vec Ideal S1x32 .f32) (x9 : Vec Ideal S32x10 .bf16) (x10 : Vec Ideal S1x10 .f32) (x11 : Vec Ideal S10x32 .bf16) (x12 : Vec Ideal S1x32 .f32) (x13 : Vec Ideal S32x10 .bf16) (x14 : Vec Ideal S1x10 .f32) (x15 : Vec Ideal S20x2 .bf16) (x16 : Vec Ideal S1x2 .f32) (p : Fin 2000) :
    row (out0_17 x0 x1 x2 x3 x4 x5 x6 x7 x8 x9 x10 x11 x12 x13 x14 x15 x16) p
      = softmax2 (fun q =>
        head (row x1 p) (hidden (row x0 p) (row x2 p) (mat x3) (vec1 x4) (mat x5) (vec1 x6) (mat x7) (vec1 x8))
          (mat x9) (vec1 x10) (mat x11) (vec1 x12) (mat x13) (vec1 x14) (mat x15) q + vec1 x16 q) := by
  unfold out0_17
  rw [View.canon_unit_zero zero_offsets]
  simp only [View.ld_unit_zero (S := S2000x128) zero_offsets, View.ld_unit_zero (S := S2000x10) zero_offsets,
    View.ld_unit_zero (S := S2000x32) zero_offsets, View.ld_unit_zero (S := S160x32) zero_offsets,
    View.ld_unit_zero (S := S1x32) zero_offsets, View.ld_unit_zero (S := S32x10) zero_offsets,
    View.ld_unit_zero (S := S1x10) zero_offsets, View.ld_unit_zero (S := S10x32) zero_offsets,
    View.ld_unit_zero (S := S20x2) zero_offsets, View.ld_unit_zero (S := S1x2) zero_offsets]
  rw [pay1_row, pay3_row, pay2_row]
  unfold k0_pay4
  rw [shapeCast_self]

end Cert.KernelIdeal.Rows

end
-- ==== Proof.KernelBlocks.lean ====
/-
  From blocks to the array.  Point `t` of the grid reads rows `2000·t … 2000·t + 1999` of the three large inputs (their
  windows move with the output's), reads every weight whole (those windows stay at block (0, 0)), and writes the same
  rows of the result.  The weights reach the kernel through a few host operations: each gate's two slabs added, the
  biases recast as one-row matrices, changes of float format (the identity at the ideal values).  So what point `t`
  writes back is rows `2000·t …` of the specification's array, the hundred points' blocks cover the array, and the array
  ends holding the specification's function of the arguments.
-/
import proofs.«133364_j45801531244823_1_alg».proof.Proof.Gen.KernelIdeal.Value
import proofs.«133364_j45801531244823_1_alg».proof.Proof.KernelBody
import proofs.«133364_j45801531244823_1_alg».proof.Proof.LibColOps
import Idealize.ShloMosaic.Lib.StableHlo.Run
import Idealize.ShloMosaic.Lib.ValueLayout

set_option maxRecDepth 16384

noncomputable section

namespace Cert.KernelIdeal.Blocks

open Cert.KernelIdeal Cert.KernelIdeal.Gen Cert.KernelIdeal.Rows Idealize.ShloMosaic Idealize.ShloMosaic.TcCoe
  Idealize.SL.Sem Idealize.ShloMosaic.ValueIdx Idealize.ShloMosaic.RowOps Cert.RowNet
open Idealize.ShloMosaic.Pipeline (Dat)

variable (m : (ℓ : Loc nD τ sig) → Buf (Elt Ideal) ℓ) (ρ : Dev nD → PrngReg)

/-- The result array: the specification's function of the argument arrays. -/
def result (c : Dev nD) : S200000x2.Idx → EReal :=
  G (m ((c : Thread nD τ).loc main_arg0))
    (m ((c : Thread nD τ).loc main_arg1))
    (m ((c : Thread nD τ).loc main_arg2))
    (m ((c : Thread nD τ).loc main_arg5))
    (m ((c : Thread nD τ).loc main_arg6))
    (m ((c : Thread nD τ).loc main_arg7))
    (m ((c : Thread nD τ).loc main_arg8))
    (m ((c : Thread nD τ).loc main_arg9))
    (m ((c : Thread nD τ).loc main_arg10))
    (m ((c : Thread nD τ).loc main_arg11))
    (m ((c : Thread nD τ).loc main_arg12))
    (m ((c : Thread nD τ).loc main_arg13))
    (m ((c : Thread nD τ).loc main_arg14))
    (m ((c : Thread nD τ).loc main_arg15))
    (m ((c : Thread nD τ).loc main_arg16))
    (m ((c : Thread nD τ).loc main_arg17))
    (m ((c : Thread nD τ).loc main_arg18))

/-! ## The index maps, decided over the hundred points -/

theorem idx_facts : ∀ t : Fin cfg0.N,
    win0_0.index t (0 : Fin 2) = win0_17.index t (0 : Fin 2) ∧ win0_0.index t (1 : Fin 2) = 0
    ∧ win0_1.index t (0 : Fin 2) = win0_17.index t (0 : Fin 2) ∧ win0_1.index t (1 : Fin 2) = 0
    ∧ win0_2.index t (0 : Fin 2) = win0_17.index t (0 : Fin 2) ∧ win0_2.index t (1 : Fin 2) = 0
    ∧ win0_17.index t (1 : Fin 2) = 0 ∧ win0_17.index t (0 : Fin 2) ≤ 99 :=
  (by decide +kernel : ∀ t : Fin grid0.N, _)

theorem idx_zero : ∀ t : Fin cfg0.N,
    (∀ a : Fin 2, win0_3.index t a = 0)
    ∧ (∀ a : Fin 2, win0_4.index t a = 0)
    ∧ (∀ a : Fin 2, win0_5.index t a = 0)
    ∧ (∀ a : Fin 2, win0_6.index t a = 0)
    ∧ (∀ a : Fin 2, win0_7.index t a = 0)
    ∧ (∀ a : Fin 2, win0_8.index t a = 0)
    ∧ (∀ a : Fin 2, win0_9.index t a = 0)
    ∧ (∀ a : Fin 2, win0_10.index t a = 0)
    ∧ (∀ a : Fin 2, win0_11.index t a = 0)
    ∧ (∀ a : Fin 2, win0_12.index t a = 0)
    ∧ (∀ a : Fin 2, win0_13.index t a = 0)
    ∧ (∀ a : Fin 2, win0_14.index t a = 0)
    ∧ (∀ a : Fin 2, win0_15.index t a = 0)
    ∧ (∀ a : Fin 2, win0_16.index t a = 0) :=
  (by decide +kernel : ∀ t : Fin grid0.N, _)

theorem idx_onto : ∀ q : Fin 100, ∃ t : Fin cfg0.N, win0_17.index t (0 : Fin 2) = q.val :=
  (by decide +kernel : ∀ q : Fin 100, ∃ t : Fin grid0.N, win0_17.index t (0 : Fin 2) = q.val)

/-- The array row under row `p` of point `t`'s output block. -/
def arow (t : Fin cfg0.N) (p : Fin 2000) : Fin 200000 :=
  ⟨win0_17.index t (0 : Fin 2) * 2000 + p.val, by have := (idx_facts t).2.2.2.2.2.2.2; have := p.isLt; omega⟩

/-! ## The windows' blocks at a point, at their literal types -/

abbrev b0 (c : Dev nD) (t : Fin cfg0.N) : Vec Ideal S2000x128 .f32 := iblk m c 0 t
abbrev b1 (c : Dev nD) (t : Fin cfg0.N) : Vec Ideal S2000x10 .f32 := iblk m c 1 t
abbrev b2 (c : Dev nD) (t : Fin cfg0.N) : Vec Ideal S2000x32 .f32 := iblk m c 2 t
abbrev b3 (c : Dev nD) (t : Fin cfg0.N) : Vec Ideal S160x32 .bf16 := iblk m c 3 t
abbrev b4 (c : Dev nD) (t : Fin cfg0.N) : Vec Ideal S1x32 .f32 := iblk m c 4 t
abbrev b5 (c : Dev nD) (t : Fin cfg0.N) : Vec Ideal S160x32 .bf16 := iblk m c 5 t
abbrev b6 (c : Dev nD) (t : Fin cfg0.N) : Vec Ideal S1x32 .f32 := iblk m c 6 t
abbrev b7 (c : Dev nD) (t : Fin cfg0.N) : Vec Ideal S160x32 .bf16 := iblk m c 7 t
abbrev b8 (c : Dev nD) (t : Fin cfg0.N) : Vec Ideal S1x32 .f32 := iblk m c 8 t
abbrev b9 (c : Dev nD) (t : Fin cfg0.N) : Vec Ideal S32x10 .bf16 := iblk m c 9 t
abbrev b10 (c : Dev nD) (t : Fin cfg0.N) : Vec Ideal S1x10 .f32 := iblk m c 10 t
abbrev b11 (c : Dev nD) (t : Fin cfg0.N) : Vec Ideal S10x32 .bf16 := iblk m c 11 t
abbrev b12 (c : Dev nD) (t : Fin cfg0.N) : Vec Ideal S1x32 .f32 := iblk m c 12 t
abbrev b13 (c : Dev nD) (t : Fin cfg0.N) : Vec Ideal S32x10 .bf16 := iblk m c 13 t
abbrev b14 (c : Dev nD) (t : Fin cfg0.N) : Vec Ideal S1x10 .f32 := iblk m c 14 t
abbrev b15 (c : Dev nD) (t : Fin cfg0.N) : Vec Ideal S20x2 .bf16 := iblk m c 15 t
abbrev b16 (c : Dev nD) (t : Fin cfg0.N) : Vec Ideal S1x2 .f32 := iblk m c 16 t

/-! ## The three large inputs: row `p` of the block is the array's row under it -/

theorem bigrow0 (c : Dev nD) (t : Fin cfg0.N) (p : Fin 2000) :
    row (b0 m c t) p = row (m ((c : Thread nD τ).loc main_arg0)) (arow t p) := by
  obtain ⟨e0, e1, e2, e3, e4, e5, e6, e7⟩ := idx_facts t
  funext k
  show V m c main_arg0 (((cfg0.win 0).blk t).view.emb (ix2 p k)) = (m ((c : Thread nD τ).loc main_arg0)) (ix2 (arow t p) k)
  rw [V_main_arg0]
  refine congrArg (m ((c : Thread nD τ).loc main_arg0)) (funext fun a => Fin.ext ?_)
  match a with
  | ⟨0, _⟩ => show win0_0.index t (0 : Fin 2) * 2000 + 1 * p.val = win0_17.index t (0 : Fin 2) * 2000 + p.val; omega
  | ⟨1, _⟩ => show win0_0.index t (1 : Fin 2) * 128 + 1 * k.val = k.val; omega

theorem bigrow1 (c : Dev nD) (t : Fin cfg0.N) (p : Fin 2000) :
    row (b1 m c t) p = row (m ((c : Thread nD τ).loc main_arg1)) (arow t p) := by
  obtain ⟨e0, e1, e2, e3, e4, e5, e6, e7⟩ := idx_facts t
  funext k
  show V m c main_arg1 (((cfg0.win 1).blk t).view.emb (ix2 p k)) = (m ((c : Thread nD τ).loc main_arg1)) (ix2 (arow t p) k)
  rw [V_main_arg1]
  refine congrArg (m ((c : Thread nD τ).loc main_arg1)) (funext fun a => Fin.ext ?_)
  match a with
  | ⟨0, _⟩ => show win0_1.index t (0 : Fin 2) * 2000 + 1 * p.val = win0_17.index t (0 : Fin 2) * 2000 + p.val; omega
  | ⟨1, _⟩ => show win0_1.index t (1 : Fin 2) * 10 + 1 * k.val = k.val; omega

theorem bigrow2 (c : Dev nD) (t : Fin cfg0.N) (p : Fin 2000) :
    row (b2 m c t) p = row (m ((c : Thread nD τ).loc main_arg2)) (arow t p) := by
  obtain ⟨e0, e1, e2, e3, e4, e5, e6, e7⟩ := idx_facts t
  funext k
  show V m c main_arg2 (((cfg0.win 2).blk t).view.emb (ix2 p k)) = (m ((c : Thread nD τ).loc main_arg2)) (ix2 (arow t p) k)
  rw [V_main_arg2]
  refine congrArg (m ((c : Thread nD τ).loc main_arg2)) (funext fun a => Fin.ext ?_)
  match a with
  | ⟨0, _⟩ => show win0_2.index t (0 : Fin 2) * 2000 + 1 * p.val = win0_17.index t (0 : Fin 2) * 2000 + p.val; omega
  | ⟨1, _⟩ => show win0_2.index t (1 : Fin 2) * 32 + 1 * k.val = k.val; omega

/-! ## The weights: each block is its whole array, which the host made from an argument -/

theorem whole3 (c : Dev nD) (t : Fin cfg0.N) : b3 m c t = V m c main_v5 := by
  funext y
  show V m c main_v5 (((cfg0.win 3).blk t).view.emb y) = V m c main_v5 y
  refine congrArg (V m c main_v5) (funext fun a => Fin.ext ?_)
  have z := (idx_zero t).1
  match a with
  | ⟨0, _⟩ => show win0_3.index t (0 : Fin 2) * 160 + 1 * (y 0).val = (y 0).val; have := z 0; omega
  | ⟨1, _⟩ => show win0_3.index t (1 : Fin 2) * 32 + 1 * (y 1).val = (y 1).val; have := z 1; omega

theorem whole4 (c : Dev nD) (t : Fin cfg0.N) : b4 m c t = V m c main_v18 := by
  funext y
  show V m c main_v18 (((cfg0.win 4).blk t).view.emb y) = V m c main_v18 y
  refine congrArg (V m c main_v18) (funext fun a => Fin.ext ?_)
  have z := (idx_zero t).2.1
  match a with
  | ⟨0, _⟩ => show win0_4.index t (0 : Fin 2) * 1 + 1 * (y 0).val = (y 0).val; have := z 0; omega
  | ⟨1, _⟩ => show win0_4.index t (1 : Fin 2) * 32 + 1 * (y 1).val = (y 1).val; have := z 1; omega

theorem whole5 (c : Dev nD) (t : Fin cfg0.N) : b5 m c t = V m c main_v11 := by
  funext y
  show V m c main_v11 (((cfg0.win 5).blk t).view.emb y) = V m c main_v11 y
  refine congrArg (V m c main_v11) (funext fun a => Fin.ext ?_)
  have z := (idx_zero t).2.2.1
  match a with
  | ⟨0, _⟩ => show win0_5.index t (0 : Fin 2) * 160 + 1 * (y 0).val = (y 0).val; have := z 0; omega
  | ⟨1, _⟩ => show win0_5.index t (1 : Fin 2) * 32 + 1 * (y 1).val = (y 1).val; have := z 1; omega

theorem whole6 (c : Dev nD) (t : Fin cfg0.N) : b6 m c t = V m c main_v19 := by
  funext y
  show V m c main_v19 (((cfg0.win 6).blk t).view.emb y) = V m c main_v19 y
  refine congrArg (V m c main_v19) (funext fun a => Fin.ext ?_)
  have z := (idx_zero t).2.2.2.1
  match a with
  | ⟨0, _⟩ => show win0_6.index t (0 : Fin 2) * 1 + 1 * (y 0).val = (y 0).val; have := z 0; omega
  | ⟨1, _⟩ => show win0_6.index t (1 : Fin 2) * 32 + 1 * (y 1).val = (y 1).val; have := z 1; omega

theorem whole7 (c : Dev nD) (t : Fin cfg0.N) : b7 m c t = V m c main_v17 := by
  funext y
  show V m c main_v17 (((cfg0.win 7).blk t).view.emb y) = V m c main_v17 y
  refine congrArg (V m c main_v17) (funext fun a => Fin.ext ?_)
  have z := (idx_zero t).2.2.2.2.1
  match a with
  | ⟨0, _⟩ => show win0_7.index t (0 : Fin 2) * 160 + 1 * (y 0).val = (y 0).val; have := z 0; omega
  | ⟨1, _⟩ => show win0_7.index t (1 : Fin 2) * 32 + 1 * (y 1).val = (y 1).val; have := z 1; omega

theorem whole8 (c : Dev nD) (t : Fin cfg0.N) : b8 m c t = V m c main_v20 := by
  funext y
  show V m c main_v20 (((cfg0.win 8).blk t).view.emb y) = V m c main_v20 y
  refine congrArg (V m c main_v20) (funext fun a => Fin.ext ?_)
  have z := (idx_zero t).2.2.2.2.2.1
  match a with
  | ⟨0, _⟩ => show win0_8.index t (0 : Fin 2) * 1 + 1 * (y 0).val = (y 0).val; have := z 0; omega
  | ⟨1, _⟩ => show win0_8.index t (1 : Fin 2) * 32 + 1 * (y 1).val = (y 1).val; have := z 1; omega

theorem whole9 (c : Dev nD) (t : Fin cfg0.N) : b9 m c t = V m c main_v21 := by
  funext y
  show V m c main_v21 (((cfg0.win 9).blk t).view.emb y) = V m c main_v21 y
  refine congrArg (V m c main_v21) (funext fun a => Fin.ext ?_)
  have z := (idx_zero t).2.2.2.2.2.2.1
  match a with
  | ⟨0, _⟩ => show win0_9.index t (0 : Fin 2) * 32 + 1 * (y 0).val = (y 0).val; have := z 0; omega
  | ⟨1, _⟩ => show win0_9.index t (1 : Fin 2) * 10 + 1 * (y 1).val = (y 1).val; have := z 1; omega

theorem whole10 (c : Dev nD) (t : Fin cfg0.N) : b10 m c t = V m c main_v22 := by
  funext y
  show V m c main_v22 (((cfg0.win 10).blk t).view.emb y) = V m c main_v22 y
  refine congrArg (V m c main_v22) (funext fun a => Fin.ext ?_)
  have z := (idx_zero t).2.2.2.2.2.2.2.1
  match a with
  | ⟨0, _⟩ => show win0_10.index t (0 : Fin 2) * 1 + 1 * (y 0).val = (y 0).val; have := z 0; omega
  | ⟨1, _⟩ => show win0_10.index t (1 : Fin 2) * 10 + 1 * (y 1).val = (y 1).val; have := z 1; omega

theorem whole11 (c : Dev nD) (t : Fin cfg0.N) : b11 m c t = V m c main_v23 := by
  funext y
  show V m c main_v23 (((cfg0.win 11).blk t).view.emb y) = V m c main_v23 y
  refine congrArg (V m c main_v23) (funext fun a => Fin.ext ?_)
  have z := (idx_zero t).2.2.2.2.2.2.2.2.1
  match a with
  | ⟨0, _⟩ => show win0_11.index t (0 : Fin 2) * 10 + 1 * (y 0).val = (y 0).val; have := z 0; omega
  | ⟨1, _⟩ => show win0_11.index t (1 : Fin 2) * 32 + 1 * (y 1).val = (y 1).val; have := z 1; omega

theorem whole12 (c : Dev nD) (t : Fin cfg0.N) : b12 m c t = V m c main_v24 := by
  funext y
  show V m c main_v24 (((cfg0.win 12).blk t).view.emb y) = V m c main_v24 y
  refine congrArg (V m c main_v24) (funext fun a => Fin.ext ?_)
  have z := (idx_zero t).2.2.2.2.2.2.2.2.2.1
  match a with
  | ⟨0, _⟩ => show win0_12.index t (0 : Fin 2) * 1 + 1 * (y 0).val = (y 0).val; have := z 0; omega
  | ⟨1, _⟩ => show win0_12.index t (1 : Fin 2) * 32 + 1 * (y 1).val = (y 1).val; have := z 1; omega

theorem whole13 (c : Dev nD) (t : Fin cfg0.N) : b13 m c t = V m c main_v25 := by
  funext y
  show V m c main_v25 (((cfg0.win 13).blk t).view.emb y) = V m c main_v25 y
  refine congrArg (V m c main_v25) (funext fun a => Fin.ext ?_)
  have z := (idx_zero t).2.2.2.2.2.2.2.2.2.2.1
  match a with
  | ⟨0, _⟩ => show win0_13.index t (0 : Fin 2) * 32 + 1 * (y 0).val = (y 0).val; have := z 0; omega
  | ⟨1, _⟩ => show win0_13.index t (1 : Fin 2) * 10 + 1 * (y 1).val = (y 1).val; have := z 1; omega

theorem whole14 (c : Dev nD) (t : Fin cfg0.N) : b14 m c t = V m c main_v26 := by
  funext y
  show V m c main_v26 (((cfg0.win 14).blk t).view.emb y) = V m c main_v26 y
  refine congrArg (V m c main_v26) (funext fun a => Fin.ext ?_)
  have z := (idx_zero t).2.2.2.2.2.2.2.2.2.2.2.1
  match a with
  | ⟨0, _⟩ => show win0_14.index t (0 : Fin 2) * 1 + 1 * (y 0).val = (y 0).val; have := z 0; omega
  | ⟨1, _⟩ => show win0_14.index t (1 : Fin 2) * 10 + 1 * (y 1).val = (y 1).val; have := z 1; omega

theorem whole15 (c : Dev nD) (t : Fin cfg0.N) : b15 m c t = V m c main_v27 := by
  funext y
  show V m c main_v27 (((cfg0.win 15).blk t).view.emb y) = V m c main_v27 y
  refine congrArg (V m c main_v27) (funext fun a => Fin.ext ?_)
  have z := (idx_zero t).2.2.2.2.2.2.2.2.2.2.2.2.1
  match a with
  | ⟨0, _⟩ => show win0_15.index t (0 : Fin 2) * 20 + 1 * (y 0).val = (y 0).val; have := z 0; omega
  | ⟨1, _⟩ => show win0_15.index t (1 : Fin 2) * 2 + 1 * (y 1).val = (y 1).val; have := z 1; omega

theorem whole16 (c : Dev nD) (t : Fin cfg0.N) : b16 m c t = V m c main_v28 := by
  funext y
  show V m c main_v28 (((cfg0.win 16).blk t).view.emb y) = V m c main_v28 y
  refine congrArg (V m c main_v28) (funext fun a => Fin.ext ?_)
  have z := (idx_zero t).2.2.2.2.2.2.2.2.2.2.2.2.2
  match a with
  | ⟨0, _⟩ => show win0_16.index t (0 : Fin 2) * 1 + 1 * (y 0).val = (y 0).val; have := z 0; omega
  | ⟨1, _⟩ => show win0_16.index t (1 : Fin 2) * 2 + 1 * (y 1).val = (y 1).val; have := z 1; omega

theorem weight3 (c : Dev nD) (t : Fin cfg0.N) : mat (b3 m c t) = wsum (m ((c : Thread nD τ).loc main_arg5)) := by
  have hv : truncf (F := Ideal) .bf16 (addf
          (shapeCast S160x32 (extractStridedSlice S1x160x32 ![0, 0, 0] (m ((c : Thread nD τ).loc main_arg5)) slices_S2x160x32_S1x160x32_0_0_0) shapeCasts_S1x160x32_S160x32)
          (shapeCast S160x32 (extractStridedSlice S1x160x32 ![1, 0, 0] (m ((c : Thread nD τ).loc main_arg5)) slices_S2x160x32_S1x160x32_1_0_0) shapeCasts_S1x160x32_S160x32))
        bitsLt_bf16_f32 = V m c main_v5 := by
    dsimp only [V, hostOps0]; after_results; rfl
  rw [whole3, ← hv]
  exact funext fun k => funext fun j => slab_sum_apply (m ((c : Thread nD τ).loc main_arg5)) _ _ _ k j

theorem weight4 (c : Dev nD) (t : Fin cfg0.N) : vec1 (b4 m c t) = vec (m ((c : Thread nD τ).loc main_arg6)) := by
  have hv : (V m c main_v18 : S1x32.Idx → EReal) = shapeCast S1x32 (m ((c : Thread nD τ).loc main_arg6)) shapeCasts_S32_S1x32 := by
    dsimp only [V, hostOps0]; after_results; rfl
  rw [whole4, hv]
  exact funext fun j => shapeCast_a_1a_apply (m ((c : Thread nD τ).loc main_arg6)) shapeCasts_S32_S1x32 0 j

theorem weight5 (c : Dev nD) (t : Fin cfg0.N) : mat (b5 m c t) = wsum (m ((c : Thread nD τ).loc main_arg7)) := by
  have hv : truncf (F := Ideal) .bf16 (addf
          (shapeCast S160x32 (extractStridedSlice S1x160x32 ![0, 0, 0] (m ((c : Thread nD τ).loc main_arg7)) slices_S2x160x32_S1x160x32_0_0_0) shapeCasts_S1x160x32_S160x32)
          (shapeCast S160x32 (extractStridedSlice S1x160x32 ![1, 0, 0] (m ((c : Thread nD τ).loc main_arg7)) slices_S2x160x32_S1x160x32_1_0_0) shapeCasts_S1x160x32_S160x32))
        bitsLt_bf16_f32 = V m c main_v11 := by
    dsimp only [V, hostOps0]; after_results; rfl
  rw [whole5, ← hv]
  exact funext fun k => funext fun j => slab_sum_apply (m ((c : Thread nD τ).loc main_arg7)) _ _ _ k j

theorem weight6 (c : Dev nD) (t : Fin cfg0.N) : vec1 (b6 m c t) = vec (m ((c : Thread nD τ).loc main_arg8)) := by
  have hv : (V m c main_v19 : S1x32.Idx → EReal) = shapeCast S1x32 (m ((c : Thread nD τ).loc main_arg8)) shapeCasts_S32_S1x32 := by
    dsimp only [V, hostOps0]; after_results; rfl
  rw [whole6, hv]
  exact funext fun j => shapeCast_a_1a_apply (m ((c : Thread nD τ).loc main_arg8)) shapeCasts_S32_S1x32 0 j

theorem weight7 (c : Dev nD) (t : Fin cfg0.N) : mat (b7 m c t) = wsum (m ((c : Thread nD τ).loc main_arg9)) := by
  have hv : truncf (F := Ideal) .bf16 (addf
          (shapeCast S160x32 (extractStridedSlice S1x160x32 ![0, 0, 0] (m ((c : Thread nD τ).loc main_arg9)) slices_S2x160x32_S1x160x32_0_0_0) shapeCasts_S1x160x32_S160x32)
          (shapeCast S160x32 (extractStridedSlice S1x160x32 ![1, 0, 0] (m ((c : Thread nD τ).loc main_arg9)) slices_S2x160x32_S1x160x32_1_0_0) shapeCasts_S1x160x32_S160x32))
        bitsLt_bf16_f32 = V m c main_v17 := by
    dsimp only [V, hostOps0]; after_results; rfl
  rw [whole7, ← hv]
  exact funext fun k => funext fun j => slab_sum_apply (m ((c : Thread nD τ).loc main_arg9)) _ _ _ k j

theorem weight8 (c : Dev nD) (t : Fin cfg0.N) : vec1 (b8 m c t) = vec (m ((c : Thread nD τ).loc main_arg10)) := by
  have hv : (V m c main_v20 : S1x32.Idx → EReal) = shapeCast S1x32 (m ((c : Thread nD τ).loc main_arg10)) shapeCasts_S32_S1x32 := by
    dsimp only [V, hostOps0]; after_results; rfl
  rw [whole8, hv]
  exact funext fun j => shapeCast_a_1a_apply (m ((c : Thread nD τ).loc main_arg10)) shapeCasts_S32_S1x32 0 j

theorem weight9 (c : Dev nD) (t : Fin cfg0.N) : mat (b9 m c t) = mat (m ((c : Thread nD τ).loc main_arg11)) := by
  have hv : truncf (F := Ideal) (s := S32x10) .bf16 (m ((c : Thread nD τ).loc main_arg11)) bitsLt_bf16_f32 = V m c main_v21 := by
    dsimp only [V, hostOps0]; after_results
  rw [whole9, ← hv]
  rfl

theorem weight10 (c : Dev nD) (t : Fin cfg0.N) : vec1 (b10 m c t) = vec (m ((c : Thread nD τ).loc main_arg12)) := by
  have hv : (V m c main_v22 : S1x10.Idx → EReal) = shapeCast S1x10 (m ((c : Thread nD τ).loc main_arg12)) shapeCasts_S10_S1x10 := by
    dsimp only [V, hostOps0]; after_results; rfl
  rw [whole10, hv]
  exact funext fun j => shapeCast_a_1a_apply (m ((c : Thread nD τ).loc main_arg12)) shapeCasts_S10_S1x10 0 j

theorem weight11 (c : Dev nD) (t : Fin cfg0.N) : mat (b11 m c t) = mat (m ((c : Thread nD τ).loc main_arg13)) := by
  have hv : truncf (F := Ideal) (s := S10x32) .bf16 (m ((c : Thread nD τ).loc main_arg13)) bitsLt_bf16_f32 = V m c main_v23 := by
    dsimp only [V, hostOps0]; after_results
  rw [whole11, ← hv]
  rfl

theorem weight12 (c : Dev nD) (t : Fin cfg0.N) : vec1 (b12 m c t) = vec (m ((c : Thread nD τ).loc main_arg14)) := by
  have hv : (V m c main_v24 : S1x32.Idx → EReal) = shapeCast S1x32 (m ((c : Thread nD τ).loc main_arg14)) shapeCasts_S32_S1x32 := by
    dsimp only [V, hostOps0]; after_results; rfl
  rw [whole12, hv]
  exact funext fun j => shapeCast_a_1a_apply (m ((c : Thread nD τ).loc main_arg14)) shapeCasts_S32_S1x32 0 j

theorem weight13 (c : Dev nD) (t : Fin cfg0.N) : mat (b13 m c t) = mat (m ((c : Thread nD τ).loc main_arg15)) := by
  have hv : truncf (F := Ideal) (s := S32x10) .bf16 (m ((c : Thread nD τ).loc main_arg15)) bitsLt_bf16_f32 = V m c main_v25 := by
    dsimp only [V, hostOps0]; after_results
  rw [whole13, ← hv]
  rfl

theorem weight14 (c : Dev nD) (t : Fin cfg0.N) : vec1 (b14 m c t) = vec (m ((c : Thread nD τ).loc main_arg16)) := by
  have hv : (V m c main_v26 : S1x10.Idx → EReal) = shapeCast S1x10 (m ((c : Thread nD τ).loc main_arg16)) shapeCasts_S10_S1x10 := by
    dsimp only [V, hostOps0]; after_results; rfl
  rw [whole14, hv]
  exact funext fun j => shapeCast_a_1a_apply (m ((c : Thread nD τ).loc main_arg16)) shapeCasts_S10_S1x10 0 j

theorem weight15 (c : Dev nD) (t : Fin cfg0.N) : mat (b15 m c t) = mat (m ((c : Thread nD τ).loc main_arg17)) := by
  have hv : truncf (F := Ideal) (s := S20x2) .bf16 (m ((c : Thread nD τ).loc main_arg17)) bitsLt_bf16_f32 = V m c main_v27 := by
    dsimp only [V, hostOps0]; after_results
  rw [whole15, ← hv]
  rfl

theorem weight16 (c : Dev nD) (t : Fin cfg0.N) : vec1 (b16 m c t) = vec (m ((c : Thread nD τ).loc main_arg18)) := by
  have hv : (V m c main_v28 : S1x2.Idx → EReal) = shapeCast S1x2 (m ((c : Thread nD τ).loc main_arg18)) shapeCasts_S2_S1x2 := by
    dsimp only [V, hostOps0]; after_results; rfl
  rw [whole16, hv]
  exact funext fun j => shapeCast_a_1a_apply (m ((c : Thread nD τ).loc main_arg18)) shapeCasts_S2_S1x2 0 j

/-! ## What a point writes back, the cover, the array -/

/-- The result array at `(r, q)`. -/
theorem result_apply (c : Dev nD) (r : Fin 200000) (q : Fin 2) :
    result m c (ix2 r q)
      = softmax2 (fun q =>
        head (row (m ((c : Thread nD τ).loc main_arg1)) r) (hidden (row (m ((c : Thread nD τ).loc main_arg0)) r) (row (m ((c : Thread nD τ).loc main_arg2)) r) (wsum (m ((c : Thread nD τ).loc main_arg5))) (vec (m ((c : Thread nD τ).loc main_arg6))) (wsum (m ((c : Thread nD τ).loc main_arg7))) (vec (m ((c : Thread nD τ).loc main_arg8))) (wsum (m ((c : Thread nD τ).loc main_arg9))) (vec (m ((c : Thread nD τ).loc main_arg10))))
          (mat (m ((c : Thread nD τ).loc main_arg11))) (vec (m ((c : Thread nD τ).loc main_arg12))) (mat (m ((c : Thread nD τ).loc main_arg13))) (vec (m ((c : Thread nD τ).loc main_arg14))) (mat (m ((c : Thread nD τ).loc main_arg15))) (vec (m ((c : Thread nD τ).loc main_arg16))) (mat (m ((c : Thread nD τ).loc main_arg17))) q + vec (m ((c : Thread nD τ).loc main_arg18)) q) q := rfl

/-- Row `p` of the block point `t` leaves is the result array's row under it. -/
theorem block_rows (c : Dev nD) (t : Fin cfg0.N) (p : Fin 2000) :
    row (out0_17 (b0 m c t) (b1 m c t) (b2 m c t) (b3 m c t) (b4 m c t) (b5 m c t) (b6 m c t) (b7 m c t) (b8 m c t) (b9 m c t) (b10 m c t) (b11 m c t) (b12 m c t) (b13 m c t) (b14 m c t) (b15 m c t) (b16 m c t)) p
      = fun q => result m c (ix2 (arow t p) q) := by
  rw [out_row, bigrow0 m c t p, bigrow1 m c t p, bigrow2 m c t p, weight3 m c t, weight4 m c t, weight5 m c t, weight6 m c t, weight7 m c t, weight8 m c t, weight9 m c t, weight10 m c t, weight11 m c t, weight12 m c t, weight13 m c t, weight14 m c t, weight15 m c t, weight16 m c t]
  funext q
  rw [result_apply]

/-- Point `t` writes back block `t` of the result array. -/
theorem flushed_eq (c : Dev nD) (t : Fin cfg0.N) :
    (dats m 0 c).flushed 17 t = ((cfg0.win 17).blk t).view.read (Elt Ideal) (result m c) := by
  have e := (idx_facts t).2.2.2.2.2.2.1
  have hb := block_rows m c t
  rw [Cert.KernelIdeal.Value.flushed17]
  generalize out0_17 (b0 m c t) (b1 m c t) (b2 m c t) (b3 m c t) (b4 m c t) (b5 m c t) (b6 m c t) (b7 m c t) (b8 m c t) (b9 m c t) (b10 m c t) (b11 m c t) (b12 m c t) (b13 m c t) (b14 m c t) (b15 m c t) (b16 m c t) = X at hb ⊢
  funext j
  show X ((cfg0.win 17).xinj (grid0.coords t) j) = result m c (((cfg0.win 17).blk t).view.emb j)
  refine (congrArg X (eq_ix2 _)).trans ?_
  refine (congrFun (hb _) _).trans ?_
  refine congrArg (result m c) (funext fun a => Fin.ext ?_)
  match a with
  | ⟨0, _⟩ => show win0_17.index t (0 : Fin 2) * 2000 + (j 0).val = win0_17.index t (0 : Fin 2) * 2000 + 1 * (j 0).val; omega
  | ⟨1, _⟩ => show (j 1).val = win0_17.index t (1 : Fin 2) * 2 + 1 * (j 1).val; omega

/-- Every index of the result array is in some point's block. -/
theorem cover (i : S200000x2.Idx) :
    ∃ t : Fin cfg0.N, (cfg0.win 17).flush t = true ∧ i ∈ ((cfg0.win 17).blk t).view.set := by
  have hi0 : (i 0).val < 200000 := (i 0).isLt
  have hi1 : (i 1).val < 2 := (i 1).isLt
  obtain ⟨t, ht⟩ := idx_onto ⟨(i 0).val / 2000, by omega⟩
  have ht' : win0_17.index t (0 : Fin 2) = (i 0).val / 2000 := ht
  have e := (idx_facts t).2.2.2.2.2.2.1
  refine ⟨t, flush0_17 t, ?_⟩
  show i ∈ ((View.whole main_v29).slice (win0_17.rect t)).set
  rw [View.set_slice_whole, Rect.mem_set_unit]
  intro a
  match a with
  | ⟨0, _⟩ =>
    show win0_17.index t (0 : Fin 2) * 2000 ≤ (i 0).val ∧ (i 0).val < win0_17.index t (0 : Fin 2) * 2000 + 2000
    omega
  | ⟨1, _⟩ =>
    show win0_17.index t (1 : Fin 2) * 2 ≤ (i 1).val ∧ (i 1).val < win0_17.index t (1 : Fin 2) * 2 + 2
    omega

/-- The result array after the run is the specification's function of the arguments. -/
theorem final (c : Dev nD) : (dats m 0 c).arrAt 17 cfg0.N = result m c :=
  (dats m 0 c).arrAt_eq_of_cover 17 (result m c) (fun t _ => flushed_eq m c t) (cover)

end Cert.KernelIdeal.Blocks

end
-- ==== Proof.RefRows.lean ====
/-
  The reference program, one row at a time.  Every value the reference computes from its three large arguments is a
  matrix of 200000 rows, and row `r` of each depends only on row `r` of those arguments and on the weights.  Reading the
  operations a row at a time — a matrix product as a row times a matrix, a bias vector laid down the rows as that vector,
  two matrices joined along the columns as their rows joined, the two slabs of a gate's weight added as their sum, the
  pointwise operations entry by entry, and `1 / (1 + exp (−x))` as the logistic function — gives the row functions of the
  specification: the GRU cell's new hidden row, the head's two logits, and the softmax of a row of two logits.
-/
import proofs.«133364_j45801531244823_1_alg».proof.Proof.Gen.ReferenceIdeal.Read
import proofs.«133364_j45801531244823_1_alg».proof.Proof.LibRowOps
import proofs.«133364_j45801531244823_1_alg».proof.Proof.LibColOps
import proofs.«133364_j45801531244823_1_alg».proof.Proof.RowNet

noncomputable section

namespace Cert.ReferenceIdeal.Rows

open Cert.ReferenceIdeal Cert.ReferenceIdeal.Gen Cert.ReferenceIdeal.Read Idealize.ShloMosaic Idealize.ShloMosaic.ValueIdx
  Idealize.ShloMosaic.RowOps Cert.RowNet

variable (r : Fin 200000)

/-! ## Rows of joined matrices -/

theorem row_cat160 (a : FVec Ideal S200000x128 .f32) (b : FVec Ideal S200000x32 .f32) :
    row (concatenate S200000x160 1 [⟨S200000x128, a⟩, ⟨S200000x32, b⟩] concatenates_S200000x128_S200000x32_S200000x160_d1) r
      = join (c := 160) rfl (row a r) (row b r) :=
  funext fun k => concat_cols_apply a b concatenates_S200000x128_S200000x32_S200000x160_d1 rfl r k

theorem row_cat20 (a b : FVec Ideal S200000x10 .f32) :
    row (concatenate S200000x20 1 [⟨S200000x10, a⟩, ⟨S200000x10, b⟩] concatenates_S200000x10_S200000x10_S200000x20_d1) r
      = join (c := 20) rfl (row a r) (row b r) :=
  funext fun k => concat_cols_apply a b concatenates_S200000x10_S200000x10_S200000x20_d1 rfl r k

/-! ## Rows of the matrix products -/

theorem row_dot_160_32 (A : FVec Ideal S200000x160 .f32) (B : FVec Ideal S160x32 .f32) :
    row (Host.dotGeneral (φ₁ := .f32) (φ₂ := .f32) dot_S200000x160_S160x32_S200000x32_1_0_0_1_n_n none A B) r
      = dot (row A r) (mat B) :=
  funext fun j => StackMember.dotGeneral_plain_apply (φ₁ := .f32) (φ₂ := .f32) none A B r j

theorem row_dot_32_10 (A : FVec Ideal S200000x32 .f32) (B : FVec Ideal S32x10 .f32) :
    row (Host.dotGeneral (φ₁ := .f32) (φ₂ := .f32) dot_S200000x32_S32x10_S200000x10_1_0_0_1_n_n none A B) r
      = dot (row A r) (mat B) :=
  funext fun j => StackMember.dotGeneral_plain_apply (φ₁ := .f32) (φ₂ := .f32) none A B r j

theorem row_dot_10_32 (A : FVec Ideal S200000x10 .f32) (B : FVec Ideal S10x32 .f32) :
    row (Host.dotGeneral (φ₁ := .f32) (φ₂ := .f32) dot_S200000x10_S10x32_S200000x32_1_0_0_1_n_n none A B) r
      = dot (row A r) (mat B) :=
  funext fun j => StackMember.dotGeneral_plain_apply (φ₁ := .f32) (φ₂ := .f32) none A B r j

theorem row_dot_20_2 (A : FVec Ideal S200000x20 .f32) (B : FVec Ideal S20x2 .f32) :
    row (Host.dotGeneral (φ₁ := .f32) (φ₂ := .f32) dot_S200000x20_S20x2_S200000x2_1_0_0_1_n_n none A B) r
      = dot (row A r) (mat B) :=
  funext fun j => StackMember.dotGeneral_plain_apply (φ₁ := .f32) (φ₂ := .f32) none A B r j

/-! ## A gate's weight: the two slabs added -/

theorem mat_slab_sum (w : FVec Ideal S2x160x32 .f32) :
    mat (addf (shapeCast S160x32 (extractStridedSlice S1x160x32 ![0, 0, 0] w slices_S2x160x32_S1x160x32_0_0_0)
          shapeCasts_S1x160x32_S160x32)
        (shapeCast S160x32 (extractStridedSlice S1x160x32 ![1, 0, 0] w slices_S2x160x32_S1x160x32_1_0_0)
          shapeCasts_S1x160x32_S160x32)) = wsum w :=
  funext fun k => funext fun j =>
    slab_sum_apply w slices_S2x160x32_S1x160x32_0_0_0 slices_S2x160x32_S1x160x32_1_0_0 shapeCasts_S1x160x32_S160x32 k j

/-! ## Rows of a bias vector laid down the rows -/

theorem row_bias32 (b : FVec Ideal S32 .f32) :
    row (broadcastInDim S200000x32 ![0, 1] bcast_S1x32_S200000x32_0_1 (broadcastInDim S1x32 ![1] bcast_S32_S1x32_1 b)) r
      = vec b :=
  funext fun j => host_bias_apply b bcast_S32_S1x32_1 bcast_S1x32_S200000x32_0_1 r j

theorem row_bias10 (b : FVec Ideal S10 .f32) :
    row (broadcastInDim S200000x10 ![0, 1] bcast_S1x10_S200000x10_0_1 (broadcastInDim S1x10 ![1] bcast_S10_S1x10_1 b)) r
      = vec b :=
  funext fun j => host_bias_apply b bcast_S10_S1x10_1 bcast_S1x10_S200000x10_0_1 r j

theorem row_bias2 (b : FVec Ideal S2 .f32) :
    row (broadcastInDim S200000x2 ![0, 1] bcast_S1x2_S200000x2_0_1 (broadcastInDim S1x2 ![1] bcast_S2_S1x2_1 b)) r
      = vec b :=
  funext fun j => host_bias_apply b bcast_S2_S1x2_1 bcast_S1x2_S200000x2_0_1 r j

/-! ## Rows of the pointwise operations and of a constant laid over the whole matrix -/

theorem row_addf {n : ℕ} (a b : FVec Ideal ⟨2, ![200000, n]⟩ .f32) : row (addf a b) r = fun i => row a r i + row b r i := rfl
theorem row_subf {n : ℕ} (a b : FVec Ideal ⟨2, ![200000, n]⟩ .f32) : row (subf a b) r = fun i => row a r i - row b r i := rfl
theorem row_mulf {n : ℕ} (a b : FVec Ideal ⟨2, ![200000, n]⟩ .f32) : row (mulf a b) r = fun i => row a r i * row b r i := rfl
theorem row_maximumf {n : ℕ} (a b : FVec Ideal ⟨2, ![200000, n]⟩ .f32) :
    row (maximumf a b) r = fun i => max (row a r i) (row b r i) := rfl
theorem row_tanh {n : ℕ} (a : FVec Ideal ⟨2, ![200000, n]⟩ .f32) :
    row (Host.tanh a) r = fun i => Ideal.tanh (row a r i) := rfl

theorem row_splat32 (c : FVec Ideal S_ .f32) :
    row (broadcastInDim S200000x32 ![] bcast_S_S200000x32 c) r = fun _ => c ix0 :=
  funext fun j => broadcastInDim_scalar_apply bcast_S_S200000x32 c (ix2 r j)

theorem row_splat10 (c : FVec Ideal S_ .f32) :
    row (broadcastInDim S200000x10 ![] bcast_S_S200000x10 c) r = fun _ => c ix0 :=
  funext fun j => broadcastInDim_scalar_apply bcast_S_S200000x10 c (ix2 r j)

/-- `1 / (1 + exp (−x))`, both ones the float literal one, is the logistic function. -/
theorem row_logistic (a : FVec Ideal S200000x32 .f32) :
    row (Host.divf (broadcastInDim S200000x32 ![] bcast_S_S200000x32 (constant S_ .f32 0x3F800000#32))
        (addf (broadcastInDim S200000x32 ![] bcast_S_S200000x32 (constant S_ .f32 0x3F800000#32))
          (Host.exp (Host.negf a)))) r
      = fun i => Ideal.logistic (row a r i) := by
  funext i
  show Ideal.div (Ideal.ofBits .f32 0x3F800000#32) (Ideal.ofBits .f32 0x3F800000#32 + Ideal.exp (-(a (ix2 r i)))) = _
  rw [Ideal.ofBits_one_f32]
  rfl

/-! ## The reference's constant matrices, bias matrices and gate weights, a row at a time -/

theorem row_v12 : row (val_main_v12 (F := Ideal)) r = fun _ => one := by
  unfold val_main_v12 val_main_cst; rw [row_splat32]; rfl
theorem row_v14 : row (val_main_v14 (F := Ideal)) r = fun _ => one := by
  unfold val_main_v14 val_main_cst_0; rw [row_splat32]; rfl
theorem row_v27 : row (val_main_v27 (F := Ideal)) r = fun _ => one := by
  unfold val_main_v27 val_main_cst_1; rw [row_splat32]; rfl
theorem row_v29 : row (val_main_v29 (F := Ideal)) r = fun _ => one := by
  unfold val_main_v29 val_main_cst_2; rw [row_splat32]; rfl
theorem row_v44 : row (val_main_v44 (F := Ideal)) r = fun _ => one := by
  unfold val_main_v44 val_main_cst_3; rw [row_splat32]; rfl
theorem row_call0_v0 : row (val_main_call0_v0 (F := Ideal)) r = fun _ => zero := by
  unfold val_main_call0_v0 val_main_call0_cst; rw [row_splat32]; rfl
theorem row_call1_v0 : row (val_main_call1_v0 (F := Ideal)) r = fun _ => zero := by
  unfold val_main_call1_v0 val_main_call1_cst; rw [row_splat32]; rfl
theorem row_call2_v0 : row (val_main_call2_v0 (F := Ideal)) r = fun _ => zero := by
  unfold val_main_call2_v0 val_main_call2_cst; rw [row_splat10]; rfl

theorem row_v8 (b : FVec Ideal S32 .f32) : row (val_main_v8 (F := Ideal) b) r = vec b := by
  unfold val_main_v8 val_main_v7; rw [row_bias32]
theorem row_v23 (b : FVec Ideal S32 .f32) : row (val_main_v23 (F := Ideal) b) r = vec b := by
  unfold val_main_v23 val_main_v22; rw [row_bias32]
theorem row_v40 (b : FVec Ideal S32 .f32) : row (val_main_v40 (F := Ideal) b) r = vec b := by
  unfold val_main_v40 val_main_v39; rw [row_bias32]
theorem row_v55 (b : FVec Ideal S32 .f32) : row (val_main_v55 (F := Ideal) b) r = vec b := by
  unfold val_main_v55 val_main_v54; rw [row_bias32]
theorem row_v51 (b : FVec Ideal S10 .f32) : row (val_main_v51 (F := Ideal) b) r = vec b := by
  unfold val_main_v51 val_main_v50; rw [row_bias10]
theorem row_v60 (b : FVec Ideal S10 .f32) : row (val_main_v60 (F := Ideal) b) r = vec b := by
  unfold val_main_v60 val_main_v59; rw [row_bias10]
theorem row_v66 (b : FVec Ideal S2 .f32) : row (val_main_v66 (F := Ideal) b) r = vec b := by
  unfold val_main_v66 val_main_v65; rw [row_bias2]

theorem mat_v5 (w : FVec Ideal S2x160x32 .f32) : mat (val_main_v5 (F := Ideal) w) = wsum w := by
  unfold val_main_v5 val_main_v4 val_main_v3 val_main_v2 val_main_v1; rw [mat_slab_sum]
theorem mat_v20 (w : FVec Ideal S2x160x32 .f32) : mat (val_main_v20 (F := Ideal) w) = wsum w := by
  unfold val_main_v20 val_main_v19 val_main_v18 val_main_v17 val_main_v16; rw [mat_slab_sum]
theorem mat_v37 (w : FVec Ideal S2x160x32 .f32) : mat (val_main_v37 (F := Ideal) w) = wsum w := by
  unfold val_main_v37 val_main_v36 val_main_v35 val_main_v34 val_main_v33; rw [mat_slab_sum]

/-- `1 / (1 + exp (−x))`, both ones matrices of the float literal one, is the logistic function. -/
theorem row_logistic_of_ones (c₁ c₂ a : FVec Ideal S200000x32 .f32) (h₁ : row c₁ r = fun _ => one)
    (h₂ : row c₂ r = fun _ => one) :
    row (Host.divf c₁ (addf c₂ (Host.exp (Host.negf a)))) r = fun i => Ideal.logistic (row a r i) := by
  funext i
  show Ideal.div (row c₁ r i) (row c₂ r i + Ideal.exp (-(a (ix2 r i)))) = _
  rw [h₁, h₂]
  show Ideal.div (Ideal.ofBits .f32 0x3F800000#32) (Ideal.ofBits .f32 0x3F800000#32 + Ideal.exp (-(a (ix2 r i)))) = _
  rw [Ideal.ofBits_one_f32]
  rfl

theorem row_logistic_z (a : FVec Ideal S200000x32 .f32) :
    row (Host.divf (val_main_v14 (F := Ideal)) (addf (val_main_v12 (F := Ideal)) (Host.exp (Host.negf a)))) r
      = fun i => Ideal.logistic (row a r i) :=
  row_logistic_of_ones r _ _ a (row_v14 r) (row_v12 r)

theorem row_logistic_r (a : FVec Ideal S200000x32 .f32) :
    row (Host.divf (val_main_v29 (F := Ideal)) (addf (val_main_v27 (F := Ideal)) (Host.exp (Host.negf a)))) r
      = fun i => Ideal.logistic (row a r i) :=
  row_logistic_of_ones r _ _ a (row_v29 r) (row_v27 r)

/-! ## The GRU cell, a row at a time -/

/-- Row `r` of the reference's new hidden state is the cell's new hidden row, of row `r` of the features and of the old
    hidden state. -/
theorem hidden_row (x0 : FVec Ideal S200000x128 .f32) (x2 : FVec Ideal S200000x32 .f32)
    (x5 : FVec Ideal S2x160x32 .f32) (x6 : FVec Ideal S32 .f32) (x7 : FVec Ideal S2x160x32 .f32) (x8 : FVec Ideal S32 .f32)
    (x9 : FVec Ideal S2x160x32 .f32) (x10 : FVec Ideal S32 .f32) :
    row (val_main_v47 (F := Ideal) x0 x2 x5 x6 x7 x8 x9 x10) r
      = hidden (row x0 r) (row x2 r) (wsum x5) (vec x6) (wsum x7) (vec x8) (wsum x9) (vec x10) := by
  unfold val_main_v47 val_main_v46 val_main_v45 val_main_v43 val_main_v42 val_main_v41 val_main_v38 val_main_v32
    val_main_v31 val_main_v30 val_main_v28 val_main_v26 val_main_v25 val_main_v24 val_main_v21 val_main_v15 val_main_v13
    val_main_v11 val_main_v10 val_main_v9 val_main_v6 val_main_v0
  simp only [row_addf, row_subf, row_mulf, row_tanh, row_logistic_z, row_logistic_r, row_v44, row_dot_160_32, row_v8,
    row_v23, row_v40, row_cat160, mat_v5, mat_v20, mat_v37]
  rfl

/-! ## The head, a row at a time -/

/-- Row `r` of the reference's logits is the head's two logits plus their bias, of row `r` of the labels and of the new
    hidden state. -/
theorem logits_row (x0 : FVec Ideal S200000x128 .f32) (x1 : FVec Ideal S200000x10 .f32) (x2 : FVec Ideal S200000x32 .f32)
    (x5 : FVec Ideal S2x160x32 .f32) (x6 : FVec Ideal S32 .f32) (x7 : FVec Ideal S2x160x32 .f32) (x8 : FVec Ideal S32 .f32)
    (x9 : FVec Ideal S2x160x32 .f32) (x10 : FVec Ideal S32 .f32) (x11 : FVec Ideal S32x10 .f32) (x12 : FVec Ideal S10 .f32)
    (x13 : FVec Ideal S10x32 .f32) (x14 : FVec Ideal S32 .f32) (x15 : FVec Ideal S32x10 .f32) (x16 : FVec Ideal S10 .f32)
    (x17 : FVec Ideal S20x2 .f32) (x18 : FVec Ideal S2 .f32) :
    row (val_main_v67 (F := Ideal) x0 x1 x2 x5 x6 x7 x8 x9 x10 x11 x12 x13 x14 x15 x16 x17 x18) r
      = fun q => head (row x1 r) (row (val_main_v47 (F := Ideal) x0 x2 x5 x6 x7 x8 x9 x10) r) (mat x11) (vec x12) (mat x13)
          (vec x14) (mat x15) (vec x16) (mat x17) q + vec x18 q := by
  unfold val_main_v67 val_main_v64 val_main_v63 val_main_v62 val_main_v61 val_main_v58 val_main_v57 val_main_v56
    val_main_v53 val_main_v52 val_main_v49 val_main_v48
  simp only [row_addf, row_maximumf, row_dot_32_10, row_dot_10_32, row_dot_20_2, row_cat20, row_v51, row_v55, row_v60,
    row_v66, row_call0_v0, row_call1_v0, row_call2_v0]
  rfl

/-! ## The softmax, a row at a time -/

/-- The reference's row maximum, taken from −∞ and once more against −∞. -/
theorem rowmax_apply (y : FVec Ideal S200000x2 .f32) :
    maximumf (broadcastInDim S200000 ![] bcast_S_S200000 (constant S_ .f32 0xFF800000#32))
        (Host.reduce FloatOps.maximumf y (constant S_ .f32 0xFF800000#32) reducesTo_S200000x2_S200000_d1 h_S_) (ix1 r)
      = max negInf ((Finset.univ : Finset (Fin 2)).fold max negInf (row y r)) := by
  show max (broadcastInDim S200000 ![] bcast_S_S200000 (constant (F := Ideal) S_ .f32 0xFF800000#32) (ix1 r))
      (Host.reduce FloatOps.maximumf y (constant S_ .f32 0xFF800000#32) reducesTo_S200000x2_S200000_d1 h_S_ (ix1 r)) = _
  rw [broadcastInDim_scalar_apply, host_max_cols_apply y _ reducesTo_S200000x2_S200000_d1 (by decide) h_S_ r]
  rfl

/-- A logit less a per-row value laid across the columns, exponentiated. -/
theorem exp_shift_apply (y : FVec Ideal S200000x2 .f32) (v : FVec Ideal S200000 .f32) (k : Fin 2) :
    Host.exp (subf y (broadcastInDim S200000x2 ![0, 1] bcast_S200000x1_S200000x2_0_1
      (broadcastInDim S200000x1 ![0] bcast_S200000_S200000x1_0 v))) (ix2 r k) = Ideal.exp (y (ix2 r k) - v (ix1 r)) := by
  show Ideal.exp (y (ix2 r k) - broadcastInDim S200000x2 ![0, 1] bcast_S200000x1_S200000x2_0_1
      (broadcastInDim S200000x1 ![0] bcast_S200000_S200000x1_0 v) (ix2 r k)) = _
  rw [host_bcast_col_apply]

/-- The reference's result at `(r, q)` is the softmax of row `r` of its logits, at `q`. -/
theorem softmax_row (x0 : FVec Ideal S200000x128 .f32) (x1 : FVec Ideal S200000x10 .f32) (x2 : FVec Ideal S200000x32 .f32)
    (x5 : FVec Ideal S2x160x32 .f32) (x6 : FVec Ideal S32 .f32) (x7 : FVec Ideal S2x160x32 .f32) (x8 : FVec Ideal S32 .f32)
    (x9 : FVec Ideal S2x160x32 .f32) (x10 : FVec Ideal S32 .f32) (x11 : FVec Ideal S32x10 .f32) (x12 : FVec Ideal S10 .f32)
    (x13 : FVec Ideal S10x32 .f32) (x14 : FVec Ideal S32 .f32) (x15 : FVec Ideal S32x10 .f32) (x16 : FVec Ideal S10 .f32)
    (x17 : FVec Ideal S20x2 .f32) (x18 : FVec Ideal S2 .f32) (q : Fin 2) :
    val_main_v78 (F := Ideal) x0 x1 x2 x5 x6 x7 x8 x9 x10 x11 x12 x13 x14 x15 x16 x17 x18 (ix2 r q)
      = softmax2 (row (val_main_v67 (F := Ideal) x0 x1 x2 x5 x6 x7 x8 x9 x10 x11 x12 x13 x14 x15 x16 x17 x18) r) q := by
  unfold val_main_v78 val_main_v77 val_main_v76 val_main_v75 val_main_cst_6 val_main_v74 val_main_v73 val_main_v72
    val_main_v71 val_main_v70 val_main_v69 val_main_cst_5 val_main_v68 val_main_cst_4
  generalize val_main_v67 (F := Ideal) x0 x1 x2 x5 x6 x7 x8 x9 x10 x11 x12 x13 x14 x15 x16 x17 x18 = y
  rw [hostDivf_apply, host_bcast_col_apply,
    host_sum_cols_apply _ _ reducesTo_S200000x2_S200000_d1 (by decide) h_S_ r, exp_shift_apply, rowmax_apply]
  refine congrArg (Ideal.div _) ?_
  show Ideal.ofBits .f32 0x00000000#32 + _ = _
  rw [Ideal.ofBits_zero_f32, zero_add]
  exact Finset.sum_congr rfl fun k _ =>
    (exp_shift_apply r y _ k).trans (congrArg (fun m => Ideal.exp (y (ix2 r k) - m)) (rowmax_apply r y))

/-! ## The whole reference -/

/-- The reference computes the specification's function of its arguments. -/
theorem ref_eq (x0 : FVec Ideal S200000x128 .f32) (x1 : FVec Ideal S200000x10 .f32) (x2 : FVec Ideal S200000x32 .f32)
    (x5 : FVec Ideal S2x160x32 .f32) (x6 : FVec Ideal S32 .f32) (x7 : FVec Ideal S2x160x32 .f32) (x8 : FVec Ideal S32 .f32)
    (x9 : FVec Ideal S2x160x32 .f32) (x10 : FVec Ideal S32 .f32) (x11 : FVec Ideal S32x10 .f32) (x12 : FVec Ideal S10 .f32)
    (x13 : FVec Ideal S10x32 .f32) (x14 : FVec Ideal S32 .f32) (x15 : FVec Ideal S32x10 .f32) (x16 : FVec Ideal S10 .f32)
    (x17 : FVec Ideal S20x2 .f32) (x18 : FVec Ideal S2 .f32) :
    Cert.ReferenceIdeal.Read.val_main_v78 (F := Ideal) x0 x1 x2 x5 x6 x7 x8 x9 x10 x11 x12 x13 x14 x15 x16 x17 x18
      = Cert.RowNet.G x0 x1 x2 x5 x6 x7 x8 x9 x10 x11 x12 x13 x14 x15 x16 x17 x18 := by
  funext i
  obtain ⟨a, b, rfl⟩ : ∃ a b, i = ix2 a b := ⟨i 0, i 1, eq_ix2 i⟩
  rw [softmax_row, logits_row, hidden_row]
  rfl

end Cert.ReferenceIdeal.Rows

end
-- ==== Proof.lean ====
/-
  The certificate: the tiled GRU-cell-and-head kernel against its whole-array reference, over the extended reals.

  Both programs compute, row by row, the same function of the arguments (Proof/RowNet.lean): the diffusion-convolution
  GRU cell with one Chebyshev term — each gate a plain matrix product with the two diffusion directions' weights added —,
  a two-branch head, and a softmax over two logits.  The kernel tiles the 200000 rows into a hundred blocks of 2000,
  keeps the weights resident, and casts its matrix operands to bf16; at the ideal values the casts are the identity, a
  kernel's matrix product into a zero accumulator is the host's product, the kernel's sigmoid is the reference's
  `1 / (1 + e⁻ˣ)`, and the two softmaxes are spelt alike.  No law of real arithmetic beyond `0 + x = x` is used, so the
  precondition (finite inputs) is not opened.

  The kernel's side: the body row by row (Proof/KernelRows.lean, KernelSoftmax.lean, KernelBody.lean), then from blocks
  to the array (Proof/KernelBlocks.lean).  The reference's side: its run's result term row by row (Proof/RefRows.lean).
  The idealization rewrote nothing, so `preserves` is trivial; the three frames are the generated ones.
-/
import proofs.«133364_j45801531244823_1_alg».proof.Defs
import proofs.«133364_j45801531244823_1_alg».proof.Proof.Gen.Kernel
import proofs.«133364_j45801531244823_1_alg».proof.Proof.Gen.Kernel.Skeleton
import proofs.«133364_j45801531244823_1_alg».proof.Proof.Gen.Kernel.Launch
import proofs.«133364_j45801531244823_1_alg».proof.Proof.Gen.Kernel.Points
import proofs.«133364_j45801531244823_1_alg».proof.Proof.Gen.Kernel.Frame
import proofs.«133364_j45801531244823_1_alg».proof.Proof.Gen.KernelIdeal
import proofs.«133364_j45801531244823_1_alg».proof.Proof.Gen.KernelIdeal.Skeleton
import proofs.«133364_j45801531244823_1_alg».proof.Proof.Gen.KernelIdeal.Launch
import proofs.«133364_j45801531244823_1_alg».proof.Proof.Gen.KernelIdeal.Points
import proofs.«133364_j45801531244823_1_alg».proof.Proof.Gen.KernelIdeal.Frame
import proofs.«133364_j45801531244823_1_alg».proof.Proof.Gen.ReferenceIdeal
import proofs.«133364_j45801531244823_1_alg».proof.Proof.Gen.Pre_finite_inputs
import proofs.«133364_j45801531244823_1_alg».proof.Proof.Gen.KernelIdeal.Value
import proofs.«133364_j45801531244823_1_alg».proof.Proof.Gen.ReferenceIdeal.Run
import proofs.«133364_j45801531244823_1_alg».proof.Proof.Gen.ReferenceIdeal.Read
import proofs.«133364_j45801531244823_1_alg».proof.Proof.KernelBlocks
import proofs.«133364_j45801531244823_1_alg».proof.Proof.RefRows
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame is its run with the two results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- Both programs end with the specification's array of the arguments as first result, and with the hidden-state
    argument, untouched, as second. -/
theorem algebraic : Cert.algebraic_KernelIdeal_ReferenceIdeal := by
  intro m ρ m' ρ' _ hagree
  refine ⟨fun c => Cert.KernelIdeal.Blocks.result m c,
    fun c => m ((c.tc : Thread Cert.KernelIdeal.nD Cert.KernelIdeal.τ).loc Cert.KernelIdeal.main_arg2), ?_, ?_⟩
  · exact (θ_run Cert.KernelIdeal.defs _ _).mono
      (fun r h c => ⟨(h c).1.trans (Cert.KernelIdeal.Blocks.final m c), (h c).2.2.2.1, (h c).2⟩)
      (Cert.KernelIdeal.Value.run_blocks m ρ)
  · refine (θ_run Cert.ReferenceIdeal.defs _ _).mono
      (fun r h c => ⟨(h c).1.trans ?_, (h c).2.1.trans (hagree c).2.2.1, (h c).2.2⟩)
      (Cert.ReferenceIdeal.Value.run (F := Ideal) m' ρ')
    obtain ⟨a0, a1, a2, a3, a4, a5, a6, a7, a8, a9, a10, a11, a12, a13, a14, a15, a16, a17, a18⟩ := hagree c
    rw [Cert.ReferenceIdeal.Read.val_main_v78_eq, Cert.ReferenceIdeal.Rows.ref_eq,
      a0, a1, a2, a5, a6, a7, a8, a9, a10, a11, a12, a13, a14, a15, a16, a17, a18]
    rfl

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
